-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v186) = v0 c
          ∧ r.2.mem ((c.tc : Thread Cert.ReferenceIdeal.nD Cert.ReferenceIdeal.τ).loc Cert.ReferenceIdeal.main_v184) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S128x640 : Shape := ⟨2, ![128, 640]⟩
abbrev S640 : Shape := ⟨1, ![640]⟩
abbrev S128 : Shape := ⟨1, ![128]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S128x640 : S_.BroadcastsInDim S128x640 (![] : Fin 0 → Fin S128x640.rank)
  reducesTo_S128x640_S_d0_1 : S128x640.ReducesTo [0, 1] S_
  bcast_S_S640 : S_.BroadcastsInDim S640 (![] : Fin 0 → Fin S640.rank)
  reducesTo_S640_S_d0 : S640.ReducesTo [0] S_
  bcast_S_S128 : S_.BroadcastsInDim S128 (![] : Fin 0 → Fin S128.rank)
  reducesTo_S128_S_d0 : S128.ReducesTo [0] S_

variable [Facts]

def fn_part5 {F : FTy → Type} [FloatOps F] (main_arg18 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg18
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  main_v93

def fn_part4 {F : FTy → Type} [FloatOps F] (main_arg14 : FVec F S128 .f32) (main_arg15 : FVec F S128 .f32) (main_arg16 : FVec F S128 .f32) (main_arg17 : FVec F S128 .f32) (main_arg18 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_arg16 main_arg17 main_arg18 main_v63 main_v67

def fn_part2 {F : FTy → Type} [FloatOps F] (main_arg7 : FVec F S128 .f32) (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_arg17 main_arg18 main_v48 main_v49 main_v50

def fn_part1 {F : FTy → Type} [FloatOps F] (main_arg4 : FVec F S128x640 .f32) (main_arg5 : FVec F S128x640 .f32) (main_arg6 : FVec F S640 .f32) (main_arg7 : FVec F S128 .f32) (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_v13 : IVec S_ 1) (main_v16 : IVec S131072x128 1) : IVec S_ 1 :=
  let main_c_5 : IVec S_ 1 := constantI S_ 1 1#1
  let main_v17 : IVec S_ 1 := (fun x v => Host.reduce IntOp.andi x v reducesTo_S131072x128_S_d0_1 h_S_) main_v16 main_c_5
  let main_v18 : IVec S_ 1 := andi main_v13 main_v17
  let main_v19 : FVec F S128x640 .f32 := Host.absf main_arg4
  let main_cst_6 : FVec F S_ .f32 := constant S_ .f32 0x7F800000#32
  let main_v20 : FVec F S128x640 .f32 := broadcastInDim S128x640 ![] bcast_S_S128x640 main_cst_6
  let main_v21 : IVec S128x640 1 := cmpf .olt main_v19 main_v20
  let main_c_7 : IVec S_ 1 := constantI S_ 1 1#1
  let main_v22 : IVec S_ 1 := (fun x v => Host.reduce IntOp.andi x v reducesTo_S128x640_S_d0_1 h_S_) main_v21 main_c_7
  let main_v23 : IVec S_ 1 := andi main_v18 main_v22
  let main_v24 : FVec F S128x640 .f32 := Host.absf main_arg5
  let main_cst_8 : FVec F S_ .f32 := constant S_ .f32 0x7F800000#32
  let main_v25 : FVec F S128x640 .f32 := broadcastInDim S128x640 ![] bcast_S_S128x640 main_cst_8
  let main_v26 : IVec S128x640 1 := cmpf .olt main_v24 main_v25
  let main_c_9 : IVec S_ 1 := constantI S_ 1 1#1
  let main_v27 : IVec S_ 1 := (fun x v => Host.reduce IntOp.andi x v reducesTo_S128x640_S_d0_1 h_S_) main_v26 main_c_9
  let main_v28 : IVec S_ 1 := andi main_v23 main_v27
  let main_v29 : FVec F S640 .f32 := Host.absf main_arg6
  let main_cst_10 : FVec F S_ .f32 := constant S_ .f32 0x7F800000#32
  let main_v30 : FVec F S640 .f32 := broadcastInDim S640 ![] bcast_S_S640 main_cst_10
  let main_v31 : IVec S640 1 := cmpf .olt main_v29 main_v30
  let main_c_11 : IVec S_ 1 := constantI S_ 1 1#1
  let main_v32 : IVec S_ 1 := (fun x v => Host.reduce IntOp.andi x v reducesTo_S640_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S131072x128 .f32) (main_arg1 : FVec F S131072x128 .f32) (main_arg2 : FVec F S131072x128 .f32) (main_arg3 : FVec F S131072x128 .f32) (main_arg4 : FVec F S128x640 .f32) (main_arg5 : FVec F S128x640 .f32) (main_arg6 : FVec F S640 .f32) (main_arg7 : FVec F S128 .f32) (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S131072x128 .f32 := Host.absf main_arg1
  let main_cst_0 : FVec F S_ .f32 := constant S_ .f32 0x7F800000#32
  let main_v5 : FVec F S131072x128 .f32 := broadcastInDim S131072x128 ![] bcast_S_S131072x128 main_cst_0
  let main_v6 : IVec S131072x128 1 := cmpf .olt main_v4 main_v5
  let main_c_1 : IVec S_ 1 := constantI S_ 1 1#1
  let main_v7 : IVec S_ 1 := (fun x v => Host.reduce IntOp.andi x v reducesTo_S131072x128_S_d0_1 h_S_) main_v6 main_c_1
  let main_v8 : IVec S_ 1 := andi main_v3 main_v7
  let main_v9 : FVec F S131072x128 .f32 := Host.absf main_arg2
  let main_cst_2 : FVec F S_ .f32 := constant S_ .f32 0x7F800000#32
  let main_v10 : FVec F S131072x128 .f32 := broadcastInDim S131072x128 ![] bcast_S_S131072x128 main_cst_2
  let main_v11 : IVec S131072x128 1 := cmpf .olt main_v9 main_v10
  let main_c_3 : IVec S_ 1 := constantI S_ 1 1#1
  let main_v12 : IVec S_ 1 := (fun x v => Host.reduce IntOp.andi x v reducesTo_S131072x128_S_d0_1 h_S_) main_v11 main_c_3
  let main_v13 : IVec S_ 1 := andi main_v8 main_v12
  let main_v14 : FVec F S131072x128 .f32 := Host.absf main_arg3
  let main_cst_4 : FVec F S_ .f32 := constant S_ .f32 0x7F800000#32
  let main_v15 : FVec F S131072x128 .f32 := broadcastInDim S131072x128 ![] bcast_S_S131072x128 main_cst_4
  let main_v16 : IVec S131072x128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S131072x128 : Shape := ⟨2, ![131072, 128]⟩
abbrev S128x640 : Shape := ⟨2, ![128, 640]⟩
abbrev S640 : Shape := ⟨1, ![640]⟩
abbrev S128 : Shape := ⟨1, ![128]⟩
abbrev S256x640 : Shape := ⟨2, ![256, 640]⟩
abbrev S1x640 : Shape := ⟨2, ![1, 640]⟩
abbrev S1x128 : Shape := ⟨2, ![1, 128]⟩
abbrev S2048x128 : Shape := ⟨2, ![2048, 128]⟩
abbrev S2048x256 : Shape := ⟨2, ![2048, 256]⟩
abbrev S2048x640 : Shape := ⟨2, ![2048, 640]⟩
abbrev S2048 : Shape := ⟨1, ![2048]⟩
abbrev S2048x1 : Shape := ⟨2, ![2048, 1]⟩

abbrev nBuf : Space → Nat
  | .hbm => 37
  | .vmem => 26
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S131072x128, .f32⟩
  | .hbm, ⟨3, _⟩ => ⟨S131072x128, .f32⟩
  | .hbm, ⟨4, _⟩ => ⟨S128x640, .f32⟩
  | .hbm, ⟨5, _⟩ => ⟨S128x640, .f32⟩
  | .hbm, ⟨6, _⟩ => ⟨S640, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128x640, .bf16⟩
  | .hbm, ⟨20, _⟩ => ⟨S128x640, .bf16⟩
  | .hbm, ⟨21, _⟩ => ⟨S256x640, .bf16⟩
  | .hbm, ⟨22, _⟩ => ⟨S1x640, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S131072x128, .f32⟩
  | .hbm, ⟨36, _⟩ => ⟨S131072x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S256x640, .bf16⟩
  | .local _ .vmem, ⟨9, _⟩ => ⟨S1x640, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S2048x128, .f32⟩
  | .local _ .vmem, ⟨23, _⟩ => ⟨S2048x128, .f32⟩
  | .local _ .vmem, ⟨24, _⟩ => ⟨S2048x128, .f32⟩
  | .local _ .vmem, ⟨25, _⟩ => ⟨S2048x128, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16_0 : Ref sig .tc := ⟨.hbm, 35, rfl⟩
abbrev main_v16_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem18_1 : DmaSem sig := 23
abbrev cc0_sem19_0 : DmaSem sig := 24
abbrev cc0_sem19_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x640 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x640 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S2048x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S2048x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

class Facts₀ : Prop where
  bitsLt_bf16_f32 : FTy.bits .bf16 < FTy.bits .f32
  concatenates_S128x640_S128x640_S256x640_d0 : Shape.Concatenates [S128x640, S128x640] S256x640 0
  shapeCasts_S640_S1x640 : S640.ShapeCasts S1x640
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  concatenates_S2048x128_S2048x128_S2048x256_d1 : Shape.Concatenates [S2048x128, S2048x128] S2048x256 1
  inb_S256x640_S256x640_0_0 : ∀ a, (![0, 0] : Fin 2 → Nat) a + S256x640.size a ≤ S256x640.size a
  h_S256x640 : 0 < S256x640.numel
  shapeCasts_S256x640_S256x640 : S256x640.ShapeCasts S256x640
  inb_S1x640_S1x640_0_0 : ∀ a, (![0, 0] : Fin 2 → Nat) a + S1x640.size a ≤ S1x640.size a
  h_S1x640 : 0 < S1x640.numel
  shapeCasts_S1x640_S1x640 : S1x640.ShapeCasts S1x640
  broadcasts_S1x640_S2048x640 : S1x640.Broadcasts S2048x640
  slices_S2048x640_o0_0_S2048x128 : S2048x640.Slices ![0, 0] S2048x128
  slices_S2048x640_o0_128_S2048x128 : S2048x640.Slices ![0, 128] S2048x128
  slices_S2048x640_o0_256_S2048x128 : S2048x640.Slices ![0, 256] S2048x128
  slices_S2048x640_o0_384_S2048x128 : S2048x640.Slices ![0, 384] S2048x128
  slices_S2048x640_o0_512_S2048x128 : S2048x640.Slices ![0, 512] S2048x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  reduces_S2048x128_S2048 : S2048x128.Reduces [1] S2048
  shapeCasts_S2048_S2048x1 : S2048.ShapeCasts S2048x1
  broadcasts_S2048x1_S2048x128 : S2048x1.Broadcasts S2048x128
  broadcasts_S1x128_S2048x128 : S1x128.Broadcasts S2048x128
  dot_S2048x256_S256x640_S2048x640_1_0_0_1_n_n_wf : DotDims.WF S2048x256 S256x640 S2048x640 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S131072x128.size a
  hwx0_0 : ∀ i : grid0.Coords, EltTy.bits .f32 = 32 ∨ (Rect.block (s := S131072x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S131072x128.size a
  hwx0_1 : ∀ i : grid0.Coords, EltTy.bits .f32 = 32 ∨ (Rect.block (s := S131072x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S131072x128.size a
  hwx0_2 : ∀ i : grid0.Coords, EltTy.bits .f32 = 32 ∨ (Rect.block (s := S131072x128) S2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S131072x128.size a
  hwx0_3 : ∀ i : grid0.Coords, EltTy.bits .f32 = 32 ∨ (Rect.block (s := S131072x128) S2048x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x640.size a ≤ S256x640.size a
  hwx0_4 : ∀ i : grid0.Coords, EltTy.bits .bf16 = 32 ∨ (Rect.block (s := S256x640) S256x640.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x640.size a ≤ S1x640.size a
  hwx0_5 : ∀ i : grid0.Coords, EltTy.bits .f32 = 32 ∨ (Rect.block (s := S1x640) S1x640.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x128.size a ≤ S1x128.size a
  hwx0_14 : ∀ i : grid0.Coords, EltTy.bits .f32 = 32 ∨ (Rect.block (s := S1x128) S1x128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x128.size a ≤ S1x128.size a
  hwx0_15 : ∀ i : grid0.Coords, EltTy.bits .f32 = 32 ∨ (Rect.block (s := S1x128) S1x128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x128.size a ≤ S1x128.size a
  hwx0_16 : ∀ i : grid0.Coords, EltTy.bits .f32 = 32 ∨ (Rect.block (s := S1x128) S1x128.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x128.size a ≤ S1x128.size a
  hwx0_17 : ∀ i : grid0.Coords, EltTy.bits .f32 = 32 ∨ (Rect.block (s := S1x128) S1x128.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S2048x128.size a ≤ S131072x128.size a
  hwx0_18 : ∀ i : grid0.Coords, EltTy.bits .f32 = 32 ∨ (Rect.block (s := S131072x128) S2048x128.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S2048x128.size a ≤ S131072x128.size a
  hwx0_19 : ∀ i : grid0.Coords, EltTy.bits .f32 = 32 ∨ (Rect.block (s := S131072x128) S2048x128.size (cc0_transform_19 i) (hinb0_19 i)).WholeWords (EltTy.packing .f32)

variable [Facts₀]

def dot_S2048x256_S256x640_S2048x640_1_0_0_1_n_n : DotDims S2048x256 S256x640 S2048x640 where
  lhsContracting := [1]
  rhsContracting := [0]
  lhsNonContracting := [0]
  rhsNonContracting := [1]
  lhsBatch := []
  rhsBatch := []
  wf := dot_S2048x256_S256x640_S2048x640_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S256x640.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x640.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v9) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v10) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v11) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v12) S1x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v13) S1x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v14) S1x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v15) S1x128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v16_0) S2048x128.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v16_1) S2048x128.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

class Facts : Prop extends Facts₀ where

variable [Facts]
-- ==== ReferenceIdeal.lean ====
abbrev S131072x128 : Shape := ⟨2, ![131072, 128]⟩
abbrev S128x640 : Shape := ⟨2, ![128, 640]⟩
abbrev S640 : Shape := ⟨1, ![640]⟩
abbrev S128 : Shape := ⟨1, ![128]⟩
abbrev S131072x640 : Shape := ⟨2, ![131072, 640]⟩
abbrev S1x640 : Shape := ⟨2, ![1, 640]⟩
abbrev S_ : Shape := ⟨0, ![]⟩
abbrev S131072 : Shape := ⟨1, ![131072]⟩
abbrev S131072x1 : Shape := ⟨2, ![131072, 1]⟩
abbrev S1x128 : Shape := ⟨2, ![1, 128]⟩

abbrev nBuf : Space → Nat
  | .hbm => 244
  | .vmem => 0
  | .smem => 0
  | _ => 0

abbrev hbmTy0_0 (i : Nat) : BufTy := match i % 128 with
  | 0 => ⟨S131072x128, .f32⟩
  | 1 => ⟨S131072x128, .f32⟩
  | 2 => ⟨S131072x128, .f32⟩
  | 3 => ⟨S131072x128, .f32⟩
  | 4 => ⟨S128x640, .f32⟩
  | 5 => ⟨S128x640, .f32⟩
  | 6 => ⟨S640, .f32⟩
  | 7 => ⟨S128, .f32⟩
  | 8 => ⟨S128, .f32⟩
  | 9 => ⟨S128, .f32⟩
  | 10 => ⟨S128, .f32⟩
  | 11 => ⟨S128, .f32⟩
  | 12 => ⟨S128, .f32⟩
  | 13 => ⟨S128, .f32⟩
  | 14 => ⟨S128, .f32⟩
  | 15 => ⟨S128, .f32⟩
  | 16 => ⟨S128, .f32⟩
  | 17 => ⟨S128, .f32⟩
  | 18 => ⟨S128, .f32⟩
  | 19 => ⟨S131072x640, .f32⟩
  | 20 => ⟨S131072x640, .f32⟩
  | 21 => ⟨S131072x640, .f32⟩
  | 22 => ⟨S1x640, .f32⟩
  | 23 => ⟨S131072x640, .f32⟩
  | 24 => ⟨S131072x640, .f32⟩
  | 25 => ⟨S131072x128, .f32⟩
  | 26 => ⟨S131072x128, .f32⟩
  | 27 => ⟨S131072x128, .f32⟩
  | 28 => ⟨S131072x128, .f32⟩
  | 29 => ⟨S131072x128, .f32⟩
  | 30 => ⟨S_, .f32⟩
  | 31 => ⟨S131072, .f32⟩
  | 32 => ⟨S131072x1, .f32⟩
  | 33 => ⟨S_, .f32⟩
  | 34 => ⟨S131072x1, .f32⟩
  | 35 => ⟨S131072x1, .f32⟩
  | 36 => ⟨S131072x128, .f32⟩
  | 37 => ⟨S131072x128, .f32⟩
  | 38 => ⟨S131072x128, .f32⟩
  | 39 => ⟨S_, .f32⟩
  | 40 => ⟨S131072, .f32⟩
  | 41 => ⟨S131072x1, .f32⟩
  | 42 => ⟨S_, .f32⟩
  | 43 => ⟨S131072x1, .f32⟩
  | 44 => ⟨S131072x1, .f32⟩
  | 45 => ⟨S131072x128, .f32⟩
  | 46 => ⟨S131072x128, .f32⟩
  | 47 => ⟨S_, .f32⟩
  | 48 => ⟨S131072x1, .f32⟩
  | 49 => ⟨S131072x1, .f32⟩
  | 50 => ⟨S131072x1, .f32⟩
  | 51 => ⟨S131072x128, .f32⟩
  | 52 => ⟨S131072x128, .f32⟩
  | 53 => ⟨S1x128, .f32⟩
  | 54 => ⟨S131072x128, .f32⟩
  | 55 => ⟨S131072x128, .f32⟩
  | 56 => ⟨S1x128, .f32⟩
  | 57 => ⟨S131072x128, .f32⟩
  | 58 => ⟨S131072x128, .f32⟩
  | 59 => ⟨S131072x128, .f32⟩
  | 60 => ⟨S_, .f32⟩
  | 61 => ⟨S131072, .f32⟩
  | 62 => ⟨S131072x1, .f32⟩
  | 63 => ⟨S_, .f32⟩
  | 64 => ⟨S131072x1, .f32⟩
  | 65 => ⟨S131072x1, .f32⟩
  | 66 => ⟨S131072x128, .f32⟩
  | 67 => ⟨S131072x128, .f32⟩
  | 68 => ⟨S131072x128, .f32⟩
  | 69 => ⟨S_, .f32⟩
  | 70 => ⟨S131072, .f32⟩
  | 71 => ⟨S131072x1, .f32⟩
  | 72 => ⟨S_, .f32⟩
  | 73 => ⟨S131072x1, .f32⟩
  | 74 => ⟨S131072x1, .f32⟩
  | 75 => ⟨S131072x128, .f32⟩
  | 76 => ⟨S131072x128, .f32⟩
  | 77 => ⟨S_, .f32⟩
  | 78 => ⟨S131072x1, .f32⟩
  | 79 => ⟨S131072x1, .f32⟩
  | 80 => ⟨S131072x1, .f32⟩
  | 81 => ⟨S131072x128, .f32⟩
  | 82 => ⟨S131072x128, .f32⟩
  | 83 => ⟨S1x128, .f32⟩
  | 84 => ⟨S131072x128, .f32⟩
  | 85 => ⟨S131072x128, .f32⟩
  | 86 => ⟨S1x128, .f32⟩
  | 87 => ⟨S131072x128, .f32⟩
  | 88 => ⟨S131072x128, .f32⟩
  | 89 => ⟨S131072x128, .f32⟩
  | 90 => ⟨S131072x128, .f32⟩
  | 91 => ⟨S_, .f32⟩
  | 92 => ⟨S131072x128, .f32⟩
  | 93 => ⟨S131072x128, .f32⟩
  | 94 => ⟨S_, .f32⟩
  | 95 => ⟨S131072x128, .f32⟩
  | 96 => ⟨S131072x128, .f32⟩
  | 97 => ⟨S_, .f32⟩
  | 98 => ⟨S131072, .f32⟩
  | 99 => ⟨S131072x1, .f32⟩
  | 100 => ⟨S_, .f32⟩
  | 101 => ⟨S131072x1, .f32⟩
  | 102 => ⟨S131072x1, .f32⟩
  | 103 => ⟨S131072x128, .f32⟩
  | 104 => ⟨S131072x128, .f32⟩
  | 105 => ⟨S131072x128, .f32⟩
  | 106 => ⟨S_, .f32⟩
  | 107 => ⟨S131072, .f32⟩
  | 108 => ⟨S131072x1, .f32⟩
  | 109 => ⟨S_, .f32⟩
  | 110 => ⟨S131072x1, .f32⟩
  | 111 => ⟨S131072x1, .f32⟩
  | 112 => ⟨S131072x128, .f32⟩
  | 113 => ⟨S131072x128, .f32⟩
  | 114 => ⟨S_, .f32⟩
  | 115 => ⟨S131072x1, .f32⟩
  | 116 => ⟨S131072x1, .f32⟩
  | 117 => ⟨S131072x1, .f32⟩
  | 118 => ⟨S131072x128, .f32⟩
  | 119 => ⟨S131072x128, .f32⟩
  | 120 => ⟨S1x128, .f32⟩
  | 121 => ⟨S131072x128, .f32⟩
  | 122 => ⟨S131072x128, .f32⟩
  | 123 => ⟨S1x128, .f32⟩
  | 124 => ⟨S131072x128, .f32⟩
  | 125 => ⟨S131072x128, .f32⟩
  | 126 => ⟨S131072x128, .f32⟩
  | 127 => ⟨S131072x128, .f32⟩
  | _ => ⟨S131072x128, .f32⟩

abbrev hbmTy0_1 (i : Nat) : BufTy := match i % 128 with
  | 0 => ⟨S_, .f32⟩
  | 1 => ⟨S131072x128, .f32⟩
  | 2 => ⟨S131072x128, .f32⟩
  | 3 => ⟨S_, .f32⟩
  | 4 => ⟨S131072x128, .f32⟩
  | 5 => ⟨S131072x128, .f32⟩
  | 6 => ⟨S_, .f32⟩
  | 7 => ⟨S131072, .f32⟩
  | 8 => ⟨S131072x1, .f32⟩
  | 9 => ⟨S_, .f32⟩
  | 10 => ⟨S131072x1, .f32⟩
  | 11 => ⟨S131072x1, .f32⟩
  | 12 => ⟨S131072x128, .f32⟩
  | 13 => ⟨S131072x128, .f32⟩
  | 14 => ⟨S131072x128, .f32⟩
  | 15 => ⟨S_, .f32⟩
  | 16 => ⟨S131072, .f32⟩
  | 17 => ⟨S131072x1, .f32⟩
  | 18 => ⟨S_, .f32⟩
  | 19 => ⟨S131072x1, .f32⟩
  | 20 => ⟨S131072x1, .f32⟩
  | 21 => ⟨S131072x128, .f32⟩
  | 22 => ⟨S131072x128, .f32⟩
  | 23 => ⟨S_, .f32⟩
  | 24 => ⟨S131072x1, .f32⟩
  | 25 => ⟨S131072x1, .f32⟩
  | 26 => ⟨S131072x1, .f32⟩
  | 27 => ⟨S131072x128, .f32⟩
  | 28 => ⟨S131072x128, .f32⟩
  | 29 => ⟨S1x128, .f32⟩
  | 30 => ⟨S131072x128, .f32⟩
  | 31 => ⟨S131072x128, .f32⟩
  | 32 => ⟨S1x128, .f32⟩
  | 33 => ⟨S131072x128, .f32⟩
  | 34 => ⟨S131072x128, .f32⟩
  | 35 => ⟨S131072x128, .f32⟩
  | 36 => ⟨S131072x128, .f32⟩
  | 37 => ⟨S_, .f32⟩
  | 38 => ⟨S131072x128, .f32⟩
  | 39 => ⟨S131072x128, .f32⟩
  | 40 => ⟨S_, .f32⟩
  | 41 => ⟨S131072x128, .f32⟩
  | 42 => ⟨S131072x128, .f32⟩
  | 43 => ⟨S_, .f32⟩
  | 44 => ⟨S131072, .f32⟩
  | 45 => ⟨S131072x1, .f32⟩
  | 46 => ⟨S_, .f32⟩
  | 47 => ⟨S131072x1, .f32⟩
  | 48 => ⟨S131072x1, .f32⟩
  | 49 => ⟨S131072x128, .f32⟩
  | 50 => ⟨S131072x128, .f32⟩
  | 51 => ⟨S131072x128, .f32⟩
  | 52 => ⟨S_, .f32⟩
  | 53 => ⟨S131072, .f32⟩
  | 54 => ⟨S131072x1, .f32⟩
  | 55 => ⟨S_, .f32⟩
  | 56 => ⟨S131072x1, .f32⟩
  | 57 => ⟨S131072x1, .f32⟩
  | 58 => ⟨S131072x128, .f32⟩
  | 59 => ⟨S131072x128, .f32⟩
  | 60 => ⟨S_, .f32⟩
  | 61 => ⟨S131072x1, .f32⟩
  | 62 => ⟨S131072x1, .f32⟩
  | 63 => ⟨S131072x1, .f32⟩
  | 64 => ⟨S131072x128, .f32⟩
  | 65 => ⟨S131072x128, .f32⟩
  | 66 => ⟨S1x128, .f32⟩
  | 67 => ⟨S131072x128, .f32⟩
  | 68 => ⟨S131072x128, .f32⟩
  | 69 => ⟨S1x128, .f32⟩
  | 70 => ⟨S131072x128, .f32⟩
  | 71 => ⟨S131072x128, .f32⟩
  | 72 => ⟨S131072x128, .f32⟩
  | 73 => ⟨S131072x128, .f32⟩
  | 74 => ⟨S_, .f32⟩
  | 75 => ⟨S131072x128, .f32⟩
  | 76 => ⟨S131072x128, .f32⟩
  | 77 => ⟨S_, .f32⟩
  | 78 => ⟨S131072x128, .f32⟩
  | 79 => ⟨S131072x128, .f32⟩
  | 80 => ⟨S131072x128, .f32⟩
  | 81 => ⟨S131072x128, .f32⟩
  | 82 => ⟨S131072x128, .f32⟩
  | 83 => ⟨S131072x128, .f32⟩
  | 84 => ⟨S131072x128, .f32⟩
  | 85 => ⟨S_, .f32⟩
  | 86 => ⟨S131072, .f32⟩
  | 87 => ⟨S131072x1, .f32⟩
  | 88 => ⟨S_, .f32⟩
  | 89 => ⟨S131072x1, .f32⟩
  | 90 => ⟨S131072x1, .f32⟩
  | 91 => ⟨S131072x128, .f32⟩
  | 92 => ⟨S131072x128, .f32⟩
  | 93 => ⟨S131072x128, .f32⟩
  | 94 => ⟨S_, .f32⟩
  | 95 => ⟨S131072, .f32⟩
  | 96 => ⟨S131072x1, .f32⟩
  | 97 => ⟨S_, .f32⟩
  | 98 => ⟨S131072x1, .f32⟩
  | 99 => ⟨S131072x1, .f32⟩
  | 100 => ⟨S131072x128, .f32⟩
  | 101 => ⟨S131072x128, .f32⟩
  | 102 => ⟨S_, .f32⟩
  | 103 => ⟨S131072x1, .f32⟩
  | 104 => ⟨S131072x1, .f32⟩
  | 105 => ⟨S131072x1, .f32⟩
  | 106 => ⟨S131072x128, .f32⟩
  | 107 => ⟨S131072x128, .f32⟩
  | 108 => ⟨S1x128, .f32⟩
  | 109 => ⟨S131072x128, .f32⟩
  | 110 => ⟨S131072x128, .f32⟩
  | 111 => ⟨S1x128, .f32⟩
  | 112 => ⟨S131072x128, .f32⟩
  | 113 => ⟨S131072x128, .f32⟩
  | 114 => ⟨S131072x128, .f32⟩
  | 115 => ⟨S131072x128, .f32⟩
  | _ => ⟨S131072x128, .f32⟩

abbrev hbmTy (i : Nat) : BufTy := match i / 128 with
  | 0 => hbmTy0_0 i
  | 1 => hbmTy0_1 i
  | _ => ⟨S131072x128, .f32⟩

abbrev bufTy : (tb : Table) → Fin (tcTables nBuf tb) → BufTy
  | .hbm, ⟨i, _⟩ => hbmTy i
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_cst_0 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_1 : Ref sig .tc := ⟨.hbm, 39, rfl⟩
abbrev main_v18 : Ref sig .tc := ⟨.hbm, 40, rfl⟩
abbrev main_v19 : Ref sig .tc := ⟨.hbm, 41, rfl⟩
abbrev main_cst_2 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_3 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_4 : Ref sig .tc := ⟨.hbm, 60, rfl⟩
abbrev main_v36 : Ref sig .tc := ⟨.hbm, 61, rfl⟩
abbrev main_v37 : Ref sig .tc := ⟨.hbm, 62, rfl⟩
abbrev main_cst_5 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_6 : Ref sig .tc := ⟨.hbm, 69, rfl⟩
abbrev main_v43 : Ref sig .tc := ⟨.hbm, 70, rfl⟩
abbrev main_v44 : Ref sig .tc := ⟨.hbm, 71, rfl⟩
abbrev main_cst_7 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_8 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_9 : Ref sig .tc := ⟨.hbm, 91, rfl⟩
abbrev main_v62 : Ref sig .tc := ⟨.hbm, 92, rfl⟩
abbrev main_v63 : Ref sig .tc := ⟨.hbm, 93, rfl⟩
abbrev main_cst_10 : Ref sig .tc := ⟨.hbm, 94, rfl⟩
abbrev main_v64 : Ref sig .tc := ⟨.hbm, 95, rfl⟩
abbrev main_v65 : Ref sig .tc := ⟨.hbm, 96, rfl⟩
abbrev main_cst_11 : Ref sig .tc := ⟨.hbm, 97, rfl⟩
abbrev main_v66 : Ref sig .tc := ⟨.hbm, 98, rfl⟩
abbrev main_v67 : Ref sig .tc := ⟨.hbm, 99, rfl⟩
abbrev main_cst_12 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_13 : Ref sig .tc := ⟨.hbm, 106, rfl⟩
abbrev main_v73 : Ref sig .tc := ⟨.hbm, 107, rfl⟩
abbrev main_v74 : Ref sig .tc := ⟨.hbm, 108, rfl⟩
abbrev main_cst_14 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_15 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_cst_16 : Ref sig .tc := ⟨.hbm, 128, rfl⟩
abbrev main_v92 : Ref sig .tc := ⟨.hbm, 129, rfl⟩
abbrev main_v93 : Ref sig .tc := ⟨.hbm, 130, rfl⟩
abbrev main_cst_17 : Ref sig .tc := ⟨.hbm, 131, rfl⟩
abbrev main_v94 : Ref sig .tc := ⟨.hbm, 132, rfl⟩
abbrev main_v95 : Ref sig .tc := ⟨.hbm, 133, rfl⟩
abbrev main_cst_18 : Ref sig .tc := ⟨.hbm, 134, rfl⟩
abbrev main_v96 : Ref sig .tc := ⟨.hbm, 135, rfl⟩
abbrev main_v97 : Ref sig .tc := ⟨.hbm, 136, rfl⟩
abbrev main_cst_19 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_cst_20 : Ref sig .tc := ⟨.hbm, 143, rfl⟩
abbrev main_v103 : Ref sig .tc := ⟨.hbm, 144, rfl⟩
abbrev main_v104 : Ref sig .tc := ⟨.hbm, 145, rfl⟩
abbrev main_cst_21 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_cst_22 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_cst_23 : Ref sig .tc := ⟨.hbm, 165, rfl⟩
abbrev main_v122 : Ref sig .tc := ⟨.hbm, 166, rfl⟩
abbrev main_v123 : Ref sig .tc := ⟨.hbm, 167, rfl⟩
abbrev main_cst_24 : Ref sig .tc := ⟨.hbm, 168, rfl⟩
abbrev main_v124 : Ref sig .tc := ⟨.hbm, 169, rfl⟩
abbrev main_v125 : Ref sig .tc := ⟨.hbm, 170, rfl⟩
abbrev main_cst_25 : Ref sig .tc := ⟨.hbm, 171, rfl⟩
abbrev main_v126 : Ref sig .tc := ⟨.hbm, 172, rfl⟩
abbrev main_v127 : Ref sig .tc := ⟨.hbm, 173, rfl⟩
abbrev main_cst_26 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_cst_27 : Ref sig .tc := ⟨.hbm, 180, rfl⟩
abbrev main_v133 : Ref sig .tc := ⟨.hbm, 181, rfl⟩
abbrev main_v134 : Ref sig .tc := ⟨.hbm, 182, rfl⟩
abbrev main_cst_28 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_cst_29 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_cst_30 : Ref sig .tc := ⟨.hbm, 202, rfl⟩
abbrev main_v152 : Ref sig .tc := ⟨.hbm, 203, rfl⟩
abbrev main_v153 : Ref sig .tc := ⟨.hbm, 204, rfl⟩
abbrev main_cst_31 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_cst_32 : Ref sig .tc := ⟨.hbm, 213, rfl⟩
abbrev main_v161 : Ref sig .tc := ⟨.hbm, 214, rfl⟩
abbrev main_v162 : Ref sig .tc := ⟨.hbm, 215, rfl⟩
abbrev main_cst_33 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_cst_34 : Ref sig .tc := ⟨.hbm, 222, rfl⟩
abbrev main_v168 : Ref sig .tc := ⟨.hbm, 223, rfl⟩
abbrev main_v169 : Ref sig .tc := ⟨.hbm, 224, rfl⟩
abbrev main_cst_35 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_cst_36 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_v186 : Ref sig .tc := ⟨.hbm, 243, rfl⟩

abbrev nD : Nat := 1
abbrev τ : Topo := Topo.v7x

variable {F : FTy → Type} [FloatOps F]

class Facts₀ : Prop where
  bcast_S640_S1x640_1 : S640.BroadcastsInDim S1x640 (![1] : Fin 1 → Fin S1x640.rank)
  bcast_S1x640_S131072x640_0_1 : S1x640.BroadcastsInDim S131072x640 (![0, 1] : Fin 2 → Fin S131072x640.rank)
  slices_S131072x640_S131072x128_0_0 : S131072x640.Slices ![0, 0] S131072x128
  slices_S131072x640_S131072x128_0_128 : S131072x640.Slices ![0, 128] S131072x128
  slices_S131072x640_S131072x128_0_256 : S131072x640.Slices ![0, 256] S131072x128
  slices_S131072x640_S131072x128_0_384 : S131072x640.Slices ![0, 384] S131072x128
  slices_S131072x640_S131072x128_0_512 : S131072x640.Slices ![0, 512] S131072x128
  reducesTo_S131072x128_S131072_d1 : S131072x128.ReducesTo [1] S131072
  h_S_ : 0 < S_.numel
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S131072x1_S131072x128_0_1 : S131072x1.BroadcastsInDim S131072x128 (![0, 1] : Fin 2 → Fin S131072x128.rank)
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S_S131072x128 : S_.BroadcastsInDim S131072x128 (![] : Fin 0 → Fin S131072x128.rank)
  dot_S131072x128_S128x640_S131072x640_1_0_0_1_n_n_wf : DotDims.WF S131072x128 S128x640 S131072x640 [1] [0] [0] [1] [] []

variable [Facts₀]

def dot_S131072x128_S128x640_S131072x640_1_0_0_1_n_n : DotDims S131072x128 S128x640 S131072x640 where
  lhsContracting := [1]
  rhsContracting := [0]
  lhsNonContracting := [0]
  rhsNonContracting := [1]
  lhsBatch := []
  rhsBatch := []
  wf := dot_S131072x128_S128x640_S131072x640_1_0_0_1_n_n_wf

class Facts : Prop extends Facts₀ where

variable [Facts]
-- ==== Proof.Cell.lean ====
/-
  The tree-LSTM cell with LayerNorm on every gate, ONE ROW at a time, over the extended reals.

  A row of the result depends on the same row of the four state arrays and on the shared parameters only, so the
  whole computation is a function of row vectors and the parameter tables:

    lin c    = (Σ_k lh k · Wl k c  +  Σ_k rh k · Wr k c)  +  br c          (c < 640: five gates of width 128)
    LN x g b = (x − mean x) · rsqrt (mean ((x − mean x)²) + ε) · g + b,     mean x = (Σ_k x k) / 128
    u = tanh (LN lin[0:128]);  i, o, lf, rf = σ (LN lin[128:256]), …, σ (LN lin[512:640]);  σ z = 1 / (1 + e^(−z))
    c' = LN (i·u + lf·lc + rf·rc),   h' = o · tanh c'.

  The kernel contracts ONE axis of length 256 (the two hidden rows side by side against the two weight tables
  stacked); the reference adds two contractions of length 128. The two agree because a sum of 256 = 128 + 128 terms
  is the sum of its two halves: only associativity and commutativity of + on the extended reals, no finiteness.
-/
import Idealize.ShloMosaic.PureOps.Ideal
import Idealize.ShloMosaic.PureOps.Ideal.Laws
import Mathlib.Algebra.BigOperators.Fin
import Idealize.ShloMosaic.Lib.ValueIdx

noncomputable section

open scoped BigOperators

namespace Cert.TreeCell

open Idealize.ShloMosaic Idealize.ShloMosaic.ValueIdx

/-- The divisor of a row mean: the f32 word of 128. -/
def c128 : EReal := Ideal.ofBits .f32 0x43000000#32
/-- LayerNorm's ε: the f32 word nearest 1e-5. -/
def ceps : EReal := Ideal.ofBits .f32 0x3727C5AC#32

/-- The mean of a row of 128 entries, as both programs compute it: the sum divided by the word of 128. -/
def mean (x : Fin 128 → EReal) : EReal := Ideal.div (∑ k, x k) c128

/-- A row's variance: the mean of the squared deviations from the row mean. -/
def var (x : Fin 128 → EReal) : EReal := mean fun k => (x k - mean x) * (x k - mean x)

/-- LayerNorm of a row with gain g and bias b, at column j. -/
def layerNorm (x g b : Fin 128 → EReal) (j : Fin 128) : EReal :=
  (x j - mean x) * Ideal.rsqrt (var x + ceps) * g j + b j

/-- Column q of gate s (0 ≤ s < 5) among the 640 pre-activation columns. -/
def slot (s : Fin 5) (q : Fin 128) : Fin 640 := ⟨128 * s.val + q.val, by have := s.isLt; have := q.isLt; omega⟩

/-- The pre-activations of a row: the two hidden rows against their weight tables, summed, plus the bias. -/
def lin (lh rh : Fin 128 → EReal) (Wl Wr : Fin 128 → Fin 640 → EReal) (br : Fin 640 → EReal) (c : Fin 640) : EReal :=
  (∑ k, lh k * Wl k c + ∑ k, rh k * Wr k c) + br c

/-- The LayerNorm parameters of the six normalisations: gain and bias of u, i, o, lf, rf and of the new cell. -/
structure Params where
  gu : Fin 128 → EReal
  bu : Fin 128 → EReal
  gi : Fin 128 → EReal
  bi : Fin 128 → EReal
  go : Fin 128 → EReal
  bo : Fin 128 → EReal
  glf : Fin 128 → EReal
  blf : Fin 128 → EReal
  grf : Fin 128 → EReal
  brf : Fin 128 → EReal
  gc : Fin 128 → EReal
  bc : Fin 128 → EReal

/-- Gate s's 128 pre-activation columns of a row. -/
def gatePre (z : Fin 640 → EReal) (s : Fin 5) : Fin 128 → EReal := fun q => z (slot s q)

/-- What is normalised into the new cell: i·u + lf·lc + rf·rc, from the pre-activations z of the row. -/
def mix (P : Params) (z : Fin 640 → EReal) (lc rc : Fin 128 → EReal) (q : Fin 128) : EReal :=
  Ideal.logistic (layerNorm (gatePre z 1) P.gi P.bi q) * Ideal.tanh (layerNorm (gatePre z 0) P.gu P.bu q)
    + Ideal.logistic (layerNorm (gatePre z 3) P.glf P.blf q) * lc q
    + Ideal.logistic (layerNorm (gatePre z 4) P.grf P.brf q) * rc q

/-- The new cell state of a row, at column j, from the row's pre-activations. -/
def cellOf (P : Params) (z : Fin 640 → EReal) (lc rc : Fin 128 → EReal) (j : Fin 128) : EReal :=
  layerNorm (mix P z lc rc) P.gc P.bc j

/-- The new hidden state of a row, at column j, from the row's pre-activations. -/
def hiddenOf (P : Params) (z : Fin 640 → EReal) (lc rc : Fin 128 → EReal) (j : Fin 128) : EReal :=
  Ideal.logistic (layerNorm (gatePre z 2) P.go P.bo j) * Ideal.tanh (cellOf P z lc rc j)

/-- Two rows of 128 side by side: entry k < 256. -/
def side (a b : Fin 128 → EReal) (k : Fin 256) : EReal :=
  if h : k.val < 128 then a ⟨k.val, h⟩ else b ⟨k.val - 128, by have := k.isLt; omega⟩

/-- A contraction over the 256 side-by-side entries is the sum of the two contractions over 128. -/
theorem sum_side (a b a' b' : Fin 128 → EReal) :
    ∑ k : Fin 256, side a b k * side a' b' k = ∑ k : Fin 128, a k * a' k + ∑ k : Fin 128, b k * b' k := by
  have h := Fin.sum_univ_add (M := EReal) (a := 128) (b := 128) fun k : Fin (128 + 128) => side a b k * side a' b' k
  refine h.trans ?_
  congr 1

/-- The pre-activations as the kernel forms them: one contraction over 256, plus the bias. -/
def linSide (lh rh : Fin 128 → EReal) (Wl Wr : Fin 128 → Fin 640 → EReal) (br : Fin 640 → EReal) (c : Fin 640) : EReal :=
  (∑ k : Fin 256, side lh rh k * side (fun k => Wl k c) (fun k => Wr k c) k) + br c

theorem linSide_eq (lh rh : Fin 128 → EReal) (Wl Wr : Fin 128 → Fin 640 → EReal) (br : Fin 640 → EReal) :
    linSide lh rh Wl Wr br = lin lh rh Wl Wr br := by
  funext c
  simp only [linSide, lin, sum_side]

/-! ## The two results as whole arrays of the nineteen argument arrays -/

/-- The shapes of the argument arrays: the four state arrays, the two weight tables, the bias, a LayerNorm vector. -/
abbrev SState : Shape := ⟨2, ![131072, 128]⟩
abbrev SWeight : Shape := ⟨2, ![128, 640]⟩
abbrev SBias : Shape := ⟨1, ![640]⟩
abbrev SVec : Shape := ⟨1, ![128]⟩

/-- The six pairs of LayerNorm vectors, as functions of the column. -/
def paramsOf (gu bu gi bi go bo glf blf grf brf gc bc : SVec.Idx → EReal) : Params :=
  { gu := fun k => gu (ix1 k), bu := fun k => bu (ix1 k), gi := fun k => gi (ix1 k), bi := fun k => bi (ix1 k),
    go := fun k => go (ix1 k), bo := fun k => bo (ix1 k), glf := fun k => glf (ix1 k), blf := fun k => blf (ix1 k),
    grf := fun k => grf (ix1 k), brf := fun k => brf (ix1 k), gc := fun k => gc (ix1 k), bc := fun k => bc (ix1 k) }

/-- Row r's pre-activations from the arrays: rows r of lhidden and rhidden against the two weight tables, plus br. -/
def preOf (lh rh : SState.Idx → EReal) (Wl Wr : SWeight.Idx → EReal) (br : SBias.Idx → EReal) (r : Fin 131072) :
    Fin 640 → EReal :=
  lin (fun k => lh (ix2 r k)) (fun k => rh (ix2 r k)) (fun k c => Wl (ix2 k c)) (fun k c => Wr (ix2 k c))
    (fun c => br (ix1 c))

/-- The new cell array: entry (r, j) is the row function of row r of the state arrays and the shared tables. -/
def cellArr (lh lc rh rc : SState.Idx → EReal) (Wl Wr : SWeight.Idx → EReal) (br : SBias.Idx → EReal)
    (gu bu gi bi go bo glf blf grf brf gc bc : SVec.Idx → EReal) : SState.Idx → EReal := fun y =>
  cellOf (paramsOf gu bu gi bi go bo glf blf grf brf gc bc) (preOf lh rh Wl Wr br (y 0))
    (fun k => lc (ix2 (y 0) k)) (fun k => rc (ix2 (y 0) k)) (y 1)

/-- The new hidden array, likewise. -/
def hiddenArr (lh lc rh rc : SState.Idx → EReal) (Wl Wr : SWeight.Idx → EReal) (br : SBias.Idx → EReal)
    (gu bu gi bi go bo glf blf grf brf gc bc : SVec.Idx → EReal) : SState.Idx → EReal := fun y =>
  hiddenOf (paramsOf gu bu gi bi go bo glf blf grf brf gc bc) (preOf lh rh Wl Wr br (y 0))
    (fun k => lc (ix2 (y 0) k)) (fun k => rc (ix2 (y 0) k)) (y 1)

end Cert.TreeCell

end
-- ==== Proof.RowOps.lean ====
/-
  Reading the row-wise operations of the kernel's body at an index, over the extended reals.

  Every non-pointwise operation of the body acts along a row: a lane sum leaves one value per row, a [n] vector is
  cast to a [n,1] column, a column or a [1,m] row is broadcast back over the [n,m] block, a block is cut along its
  columns, two blocks are laid side by side. Each lemma says which entry of the operand an entry of the result is;
  the row count n is arbitrary, so the same statements serve a block and a whole array.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«415454_j61366492725519_3_alg».proof.Proof.Cell

noncomputable section

open scoped BigOperators

namespace Cert.TreeCell

open Idealize.ShloMosaic Idealize.ShloMosaic.ValueIdx

variable {α : Type}

/-! ## The transcendental operations at an index (definitional) -/

theorem tanh_apply {s : Shape} {φ : FTy} (a : FVec Ideal s φ) (i : s.Idx) : tanh a i = Ideal.tanh (a i) := rfl
theorem rsqrt_apply {s : Shape} {φ : FTy} (a : FVec Ideal s φ) (i : s.Idx) : rsqrt a i = Ideal.rsqrt (a i) := rfl
theorem logistic_apply {s : Shape} {φ : FTy} (a : FVec Ideal s φ) (i : s.Idx) : logistic a i = Ideal.logistic (a i) := rfl
theorem scalar_ofBits_f32 (w : BitVec 32) : (Scalar.ofBits (F := Ideal) .f32 w : EReal) = Ideal.ofBits .f32 w := rfl

/-! ## Layout along rows -/

/-- The lane sum of an [n,128] block, at row p: the sum of that row's 128 entries. -/
theorem rowSum_apply {n : ℕ} (v : FVec Ideal ⟨2, ![n, 128]⟩ .f32) (acc : BitVec 32)
    (h : (⟨2, ![n, 128]⟩ : Shape).Reduces [1] ⟨1, ![n]⟩) (hφ : FKind.Formats .f32) (hacc : acc = FKind.add.neutral .f32 hφ)
    (p : Fin n) :
    multiReduction .add [1] ⟨1, ![n]⟩ v acc h hφ hacc (ix1 p) = ∑ k : Fin 128, v (ix2 p k) := by
  rw [Ideal.multiReduction_add_single]
  refine Finset.sum_congr rfl fun k _ => congrArg v ?_
  funext a
  match a with
  | ⟨0, _⟩ => rfl
  | ⟨1, _⟩ => rfl

/-- A [n] vector cast to a [n,1] column: entry (p, 0) is entry p. -/
theorem colCast_apply {n : ℕ} (u : (⟨1, ![n]⟩ : Shape).Idx → α) (h : (⟨1, ![n]⟩ : Shape).ShapeCasts ⟨2, ![n, 1]⟩)
    (p : Fin n) (z : Fin 1) : shapeCast ⟨2, ![n, 1]⟩ u h (ix2 p z) = u (ix1 p) := by
  refine shapeCast_apply u h (ix2 p z) (ix1 p) ?_
  rw [Shape.rowMajor_val_one, Shape.rowMajor_val_two]
  have hz := z.isLt
  show p.val = p.val * 1 + z.val
  omega

/-- A [n,1] column broadcast over [n,m]: entry (p, q) is the column's entry (p, 0). -/
theorem colBcast_apply {n m : ℕ} (col : (⟨2, ![n, 1]⟩ : Shape).Idx → α)
    (h : (⟨2, ![n, 1]⟩ : Shape).Broadcasts ⟨2, ![n, m]⟩) (p : Fin n) (q : Fin m) :
    broadcastTo ⟨2, ![n, m]⟩ col h (ix2 p q) = col (ix2 p (0 : Fin 1)) := by
  refine broadcastTo_apply col h (ix2 p q) (ix2 p (0 : Fin 1)) fun a => ?_
  match a with
  | ⟨0, _⟩ =>
    show p.val = if n = 1 then 0 else p.val
    split
    · have := p.isLt; omega
    · rfl
  | ⟨1, _⟩ => rfl

/-- The row mean as the body forms it (lane sum, cast to a column, divided by the splat of 128), at row p. -/
theorem meanCol_apply {n : ℕ} (v : FVec Ideal ⟨2, ![n, 128]⟩ .f32) (acc : BitVec 32)
    (h : (⟨2, ![n, 128]⟩ : Shape).Reduces [1] ⟨1, ![n]⟩) (hφ : FKind.Formats .f32) (hacc : acc = FKind.add.neutral .f32 hφ)
    (hc : (⟨1, ![n]⟩ : Shape).ShapeCasts ⟨2, ![n, 1]⟩) (p : Fin n) (z : Fin 1) :
    divf (shapeCast ⟨2, ![n, 1]⟩ (multiReduction .add [1] ⟨1, ![n]⟩ v acc h hφ hacc) hc)
        (broadcast ⟨2, ![n, 1]⟩ (Scalar.ofBits .f32 0x43000000#32)) (ix2 p z)
      = mean fun k => v (ix2 p k) := by
  show Ideal.div (shapeCast ⟨2, ![n, 1]⟩ (multiReduction .add [1] ⟨1, ![n]⟩ v acc h hφ hacc) hc (ix2 p z)) _ = _
  rw [colCast_apply, rowSum_apply]
  rfl

/-- The same without the division: the lane sum cast to a column, at row p. -/
theorem sumCol_apply {n : ℕ} (v : FVec Ideal ⟨2, ![n, 128]⟩ .f32) (acc : BitVec 32)
    (h : (⟨2, ![n, 128]⟩ : Shape).Reduces [1] ⟨1, ![n]⟩) (hφ : FKind.Formats .f32) (hacc : acc = FKind.add.neutral .f32 hφ)
    (hc : (⟨1, ![n]⟩ : Shape).ShapeCasts ⟨2, ![n, 1]⟩) (p : Fin n) (z : Fin 1) :
    shapeCast ⟨2, ![n, 1]⟩ (multiReduction .add [1] ⟨1, ![n]⟩ v acc h hφ hacc) hc (ix2 p z) = ∑ k : Fin 128, v (ix2 p k) := by
  rw [colCast_apply, rowSum_apply]

end Cert.TreeCell

end
-- ==== Proof.KernelPre.lean ====
/-
  The kernel body's pre-activations at an index.

  The body lays a block's rows of the two hidden states side by side ([2048,128] and [2048,128] along the columns,
  giving [2048,256]), contracts the 256 columns against the [256,640] stacked weight block into a zero accumulator,
  and adds the [1,640] bias row to every row. At (p, c) that is the sum over k < 256 of the side-by-side row p at k
  times the weight block at (k, c), plus the bias at c. The five gates are column slices of width 128 at offsets
  0, 128, 256, 384, 512 of this [2048,640] value.
-/
import proofs.«415454_j61366492725519_3_alg».proof.Proof.Gen.KernelIdeal.Skeleton
import proofs.«415454_j61366492725519_3_alg».proof.Proof.Cell
import proofs.«415454_j61366492725519_3_alg».proof.Proof.RowOps

noncomputable section

open scoped BigOperators

namespace Cert.KernelIdeal.Rows

open Cert.KernelIdeal Cert.KernelIdeal.Gen Idealize.ShloMosaic Idealize.ShloMosaic.ValueIdx Cert.TreeCell

/-! ## The contraction's operand indices, axis by axis -/

theorem lhs_mm_0 (i : S2048x640.Idx) (q : dot_S2048x256_S256x640_S2048x640_1_0_0_1_n_n.contr.Idx) :
    (dot_S2048x256_S256x640_S2048x640_1_0_0_1_n_n.lhsIdx i q 0).val = (i 0).val := by
  unfold DotDims.lhsIdx
  rw [dif_neg (show ¬(0 : Fin S2048x256.rank) ∈ dot_S2048x256_S256x640_S2048x640_1_0_0_1_n_n.lhsBatch by decide), dif_pos (show (0 : Fin S2048x256.rank) ∈ dot_S2048x256_S256x640_S2048x640_1_0_0_1_n_n.lhsNonContracting by decide)]
  rfl
theorem lhs_mm_1 (i : S2048x640.Idx) (q : dot_S2048x256_S256x640_S2048x640_1_0_0_1_n_n.contr.Idx) :
    (dot_S2048x256_S256x640_S2048x640_1_0_0_1_n_n.lhsIdx i q 1).val = (q ⟨0, by decide⟩).val :=
  dot_S2048x256_S256x640_S2048x640_1_0_0_1_n_n.lhsIdx_val_of_single rfl i q
theorem rhs_mm_0 (i : S2048x640.Idx) (q : dot_S2048x256_S256x640_S2048x640_1_0_0_1_n_n.contr.Idx) :
    (dot_S2048x256_S256x640_S2048x640_1_0_0_1_n_n.rhsIdx i q 0).val = (q ⟨0, by decide⟩).val :=
  dot_S2048x256_S256x640_S2048x640_1_0_0_1_n_n.rhsIdx_val_of_single rfl i q
theorem rhs_mm_1 (i : S2048x640.Idx) (q : dot_S2048x256_S256x640_S2048x640_1_0_0_1_n_n.contr.Idx) :
    (dot_S2048x256_S256x640_S2048x640_1_0_0_1_n_n.rhsIdx i q 1).val = (i 1).val := by
  unfold DotDims.rhsIdx
  rw [dif_neg (show ¬(1 : Fin S256x640.rank) ∈ dot_S2048x256_S256x640_S2048x640_1_0_0_1_n_n.rhsBatch by decide), dif_pos (show (1 : Fin S256x640.rank) ∈ dot_S2048x256_S256x640_S2048x640_1_0_0_1_n_n.rhsNonContracting by decide)]
  rfl

/-- The [2048,256] by [256,640] product into a zero accumulator, at (p, c): the sum over the 256 contracted columns. -/
theorem matmul_at (l : FVec Ideal S2048x256 .bf16) (r : FVec Ideal S256x640 .bf16) (p : Fin 2048) (c : Fin 640) :
    matmul dot_S2048x256_S256x640_S2048x640_1_0_0_1_n_n none l r (constant S2048x640 .f32 0x00000000#32) (ix2 p c)
      = ∑ k : Fin 256, l (ix2 p k) * r (ix2 k c) := by
  simp only [matmul]
  rw [Ideal.matmul_constant_zero_apply, ← Equiv.sum_comp (ValueIdx.contrEquiv1 dot_S2048x256_S256x640_S2048x640_1_0_0_1_n_n 256 rfl rfl).symm]
  refine Finset.sum_congr rfl fun k _ => ?_
  have hk := ValueIdx.contrEquiv1_symm_val dot_S2048x256_S256x640_S2048x640_1_0_0_1_n_n 256 rfl rfl k
  have el : dot_S2048x256_S256x640_S2048x640_1_0_0_1_n_n.lhsIdx (ix2 p c) ((ValueIdx.contrEquiv1 dot_S2048x256_S256x640_S2048x640_1_0_0_1_n_n 256 rfl rfl).symm k) = ix2 p k :=
    funext fun a => Fin.ext (by
      match a with
      | ⟨0, _⟩ => exact lhs_mm_0 _ _
      | ⟨1, _⟩ => exact (lhs_mm_1 _ _).trans hk)
  have er : dot_S2048x256_S256x640_S2048x640_1_0_0_1_n_n.rhsIdx (ix2 p c) ((ValueIdx.contrEquiv1 dot_S2048x256_S256x640_S2048x640_1_0_0_1_n_n 256 rfl rfl).symm k) = ix2 k c :=
    funext fun a => Fin.ext (by
      match a with
      | ⟨0, _⟩ => exact (rhs_mm_0 _ _).trans hk
      | ⟨1, _⟩ => exact rhs_mm_1 _ _)
  rw [el, er]

/-- Two [2048,128] blocks side by side, at (p, k): row p of the first for k < 128, of the second from 128 on. -/
theorem hcat_at (a b : S2048x128.Idx → EReal) (h : Shape.Concatenates [S2048x128, S2048x128] S2048x256 1)
    (p : Fin 2048) (k : Fin 256) :
    concatenate S2048x256 1 [⟨S2048x128, a⟩, ⟨S2048x128, b⟩] h (ix2 p k)
      = side (fun j => a (ix2 p j)) (fun j => b (ix2 p j)) k := by
  unfold side
  by_cases hk : k.val < 128
  · rw [dif_pos hk]
    exact concatenate_pair_apply_left 1 a b h (ix2 p k) rfl (ix2 p ⟨k.val, hk⟩) (fun d => by
      match d with
      | ⟨0, _⟩ => rfl
      | ⟨1, _⟩ => rfl)
  · rw [dif_neg hk]
    refine concatenate_pair_apply_right 1 a b h (ix2 p k) rfl rfl (ix2 p ⟨k.val - 128, by have := k.isLt; omega⟩) (fun d hd => ?_) ?_
    · match d with
      | ⟨0, _⟩ => rfl
      | ⟨1, _⟩ => exact absurd rfl hd
    · show (k.val - 128) + 128 = k.val
      omega

/-- The pre-activations of row p of a block: the side-by-side hidden rows against the stacked weight block, plus bias. -/
def preBlk (x0 x2 : Vec Ideal S2048x128 .f32) (x7 : Vec Ideal S256x640 .bf16) (x10 : Vec Ideal S1x640 .f32) (p : Fin 2048)
    (c : Fin 640) : EReal :=
  (∑ k : Fin 256, side (fun j => x0 (ix2 p j)) (fun j => x2 (ix2 p j)) k * x7 (ix2 k c)) + x10 (ix2 (0 : Fin 1) c)

theorem pay3_at (x0 x2 : Vec Ideal S2048x128 .f32) (x7 : Vec Ideal S256x640 .bf16) (x10 : Vec Ideal S1x640 .f32)
    (p : Fin 2048) (c : Fin 640) : k0_pay3 x0 x2 x7 x10 (ix2 p c) = preBlk x0 x2 x7 x10 p c := by
  unfold k0_pay3 preBlk
  simp only [addf_apply, matmul_at, hcat_at, truncf_apply, shapeCast_self, broadcastTo_1b_ab_apply]

/-- The gates are column slices of the pre-activations: gate s at (p, q) is column 128 s + q. -/
theorem pay4_at (x0 x2 : Vec Ideal S2048x128 .f32) (x7 : Vec Ideal S256x640 .bf16) (x10 : Vec Ideal S1x640 .f32)
    (p : Fin 2048) (q : Fin 128) : k0_pay4 x0 x2 x7 x10 (ix2 p q) = gatePre (preBlk x0 x2 x7 x10 p) 0 q := by
  unfold k0_pay4 gatePre
  rw [slice2_axis1_apply 0 _ _ p q (slot 0 q) (by simp [slot]), pay3_at]
theorem pay5_at (x0 x2 : Vec Ideal S2048x128 .f32) (x7 : Vec Ideal S256x640 .bf16) (x10 : Vec Ideal S1x640 .f32)
    (p : Fin 2048) (q : Fin 128) : k0_pay5 x0 x2 x7 x10 (ix2 p q) = gatePre (preBlk x0 x2 x7 x10 p) 1 q := by
  unfold k0_pay5 gatePre
  rw [slice2_axis1_apply 128 _ _ p q (slot 1 q) (by simp [slot]), pay3_at]
theorem pay6_at (x0 x2 : Vec Ideal S2048x128 .f32) (x7 : Vec Ideal S256x640 .bf16) (x10 : Vec Ideal S1x640 .f32)
    (p : Fin 2048) (q : Fin 128) : k0_pay6 x0 x2 x7 x10 (ix2 p q) = gatePre (preBlk x0 x2 x7 x10 p) 2 q := by
  unfold k0_pay6 gatePre
  rw [slice2_axis1_apply 256 _ _ p q (slot 2 q) (by simp [slot]), pay3_at]
theorem pay7_at (x0 x2 : Vec Ideal S2048x128 .f32) (x7 : Vec Ideal S256x640 .bf16) (x10 : Vec Ideal S1x640 .f32)
    (p : Fin 2048) (q : Fin 128) : k0_pay7 x0 x2 x7 x10 (ix2 p q) = gatePre (preBlk x0 x2 x7 x10 p) 3 q := by
  unfold k0_pay7 gatePre
  rw [slice2_axis1_apply 384 _ _ p q (slot 3 q) (by simp [slot]), pay3_at]
theorem pay8_at (x0 x2 : Vec Ideal S2048x128 .f32) (x7 : Vec Ideal S256x640 .bf16) (x10 : Vec Ideal S1x640 .f32)
    (p : Fin 2048) (q : Fin 128) : k0_pay8 x0 x2 x7 x10 (ix2 p q) = gatePre (preBlk x0 x2 x7 x10 p) 4 q := by
  unfold k0_pay8 gatePre
  rw [slice2_axis1_apply 512 _ _ p q (slot 4 q) (by simp [slot]), pay3_at]

end Cert.KernelIdeal.Rows

end
-- ==== Proof.KernelGates.lean ====
/-
  The kernel body's LayerNorm pieces and gates at an index.

  Each piece of the body is read at (p, q) or, for a per-row column, at (p, 0): a row mean is the mean of row p, a
  broadcast column is its entry at row p, a broadcast parameter row is its entry at column q, and the pointwise
  operations act entry by entry. Put together, each gate at (p, q) is the logistic function or the hyperbolic
  tangent of the LayerNorm of row p of its pre-activation slice.
-/
import proofs.«415454_j61366492725519_3_alg».proof.Proof.KernelPre

noncomputable section

open scoped BigOperators

namespace Cert.KernelIdeal.Rows

open Cert.KernelIdeal Cert.KernelIdeal.Gen Idealize.ShloMosaic Idealize.ShloMosaic.ValueIdx Cert.TreeCell

/-! ## The body's row statistics and its LayerNorm, named -/

/-- The lane sums of a [2048,128] block as a [2048,1] column. -/
def sumCol (v : FVec Ideal S2048x128 .f32) : FVec Ideal S2048x1 .f32 :=
  shapeCast S2048x1 (multiReduction .add [1] S2048 v 0x00000000#32 reduces_S2048x128_S2048 (.inl rfl) rfl) shapeCasts_S2048_S2048x1

/-- The row means as a column: the lane sums divided by the splat of 128. -/
def meanCol (v : FVec Ideal S2048x128 .f32) : FVec Ideal S2048x1 .f32 :=
  divf (sumCol v) (broadcast S2048x1 (Scalar.ofBits .f32 0x43000000#32))

theorem sumCol_at (v : FVec Ideal S2048x128 .f32) (p : Fin 2048) (z : Fin 1) :
    sumCol v (ix2 p z) = ∑ k : Fin 128, v (ix2 p k) :=
  sumCol_apply v _ _ _ _ _ p z

theorem meanCol_at (v : FVec Ideal S2048x128 .f32) (p : Fin 2048) (z : Fin 1) :
    meanCol v (ix2 p z) = mean fun k => v (ix2 p k) :=
  meanCol_apply v _ _ _ _ _ p z

/-- The body's LayerNorm of a block, row by row, with a [1,128] gain row and bias row. -/
def lnBody (v : FVec Ideal S2048x128 .f32) (g b : FVec Ideal S1x128 .f32) : FVec Ideal S2048x128 .f32 :=
  addf (mulf (mulf (subf v (broadcastTo S2048x128 (meanCol v) broadcasts_S2048x1_S2048x128))
      (broadcastTo S2048x128 (rsqrt (addf (meanCol (mulf (subf v (broadcastTo S2048x128 (meanCol v) broadcasts_S2048x1_S2048x128))
          (subf v (broadcastTo S2048x128 (meanCol v) broadcasts_S2048x1_S2048x128)))) (broadcast S2048x1 (Scalar.ofBits .f32 0x3727C5AC#32)))) broadcasts_S2048x1_S2048x128))
      (broadcastTo S2048x128 g broadcasts_S1x128_S2048x128)) (broadcastTo S2048x128 b broadcasts_S1x128_S2048x128)

theorem lnBody_at (v : FVec Ideal S2048x128 .f32) (g b : FVec Ideal S1x128 .f32) (p : Fin 2048) (q : Fin 128) :
    lnBody v g b (ix2 p q)
      = layerNorm (fun k => v (ix2 p k)) (fun k => g (ix2 (0 : Fin 1) k)) (fun k => b (ix2 (0 : Fin 1) k)) q := by
  unfold lnBody layerNorm var ceps
  simp only [addf_apply, mulf_apply, subf_apply, rsqrt_apply, colBcast_apply, broadcastTo_1b_ab_apply, meanCol_at,
    broadcast_apply, scalar_ofBits_f32]

/-! ## The parameter rows pass through a cast to their own shape -/

theorem pay9_eq (v : Vec Ideal S1x128 .f32) : k0_pay9 v = v := by unfold k0_pay9; exact shapeCast_self _ _
theorem pay10_eq (v : Vec Ideal S1x128 .f32) : k0_pay10 v = v := by unfold k0_pay10; exact shapeCast_self _ _
theorem pay17_eq (v : Vec Ideal S1x128 .f32) : k0_pay17 v = v := by unfold k0_pay17; exact shapeCast_self _ _
theorem pay18_eq (v : Vec Ideal S1x128 .f32) : k0_pay18 v = v := by unfold k0_pay18; exact shapeCast_self _ _
theorem pay24_eq (v : Vec Ideal S1x128 .f32) : k0_pay24 v = v := by unfold k0_pay24; exact shapeCast_self _ _
theorem pay25_eq (v : Vec Ideal S1x128 .f32) : k0_pay25 v = v := by unfold k0_pay25; exact shapeCast_self _ _

/-! ## The first gate (u), which the body computes in five pieces -/

theorem pay11_eq (x0 x2 : Vec Ideal S2048x128 .f32) (x7 : Vec Ideal S256x640 .bf16) (x10 : Vec Ideal S1x640 .f32) : k0_pay11 x0 x2 x7 x10 = meanCol (k0_pay4 x0 x2 x7 x10) := rfl

theorem pay11_at (x0 x2 : Vec Ideal S2048x128 .f32) (x7 : Vec Ideal S256x640 .bf16) (x10 : Vec Ideal S1x640 .f32) (p : Fin 2048) (z : Fin 1) :
    k0_pay11 x0 x2 x7 x10 (ix2 p z) = mean (gatePre (preBlk x0 x2 x7 x10 p) 0) := by
  rw [pay11_eq, meanCol_at]
  simp only [pay4_at]

theorem pay12_eq (x0 x2 : Vec Ideal S2048x128 .f32) (x7 : Vec Ideal S256x640 .bf16) (x10 : Vec Ideal S1x640 .f32) : k0_pay12 x0 x2 x7 x10
    = meanCol (mulf (subf (k0_pay4 x0 x2 x7 x10) (broadcastTo S2048x128 (k0_pay11 x0 x2 x7 x10) broadcasts_S2048x1_S2048x128))
        (subf (k0_pay4 x0 x2 x7 x10) (broadcastTo S2048x128 (k0_pay11 x0 x2 x7 x10) broadcasts_S2048x1_S2048x128))) := rfl

theorem pay12_at (x0 x2 : Vec Ideal S2048x128 .f32) (x7 : Vec Ideal S256x640 .bf16) (x10 : Vec Ideal S1x640 .f32) (p : Fin 2048) (z : Fin 1) :
    k0_pay12 x0 x2 x7 x10 (ix2 p z) = var (gatePre (preBlk x0 x2 x7 x10 p) 0) := by
  rw [pay12_eq, meanCol_at]
  unfold var
  simp only [mulf_apply, subf_apply, colBcast_apply, pay4_at, pay11_at]

theorem pay13_at (x0 x2 : Vec Ideal S2048x128 .f32) (x7 : Vec Ideal S256x640 .bf16) (x10 : Vec Ideal S1x640 .f32) (p : Fin 2048) (q : Fin 128) :
    k0_pay13 x0 x2 x7 x10 (ix2 p q) = gatePre (preBlk x0 x2 x7 x10 p) 0 q - mean (gatePre (preBlk x0 x2 x7 x10 p) 0) := by
  unfold k0_pay13
  simp only [subf_apply, colBcast_apply, pay4_at, pay11_at]

theorem pay14_at (p : Fin 2048) (z : Fin 1) : k0_pay14 (F := Ideal) (ix2 p z) = ceps := rfl

theorem pay15_at (v20 v22 : FVec Ideal S1x128 .f32) (v33 : FVec Ideal S2048x1 .f32) (v35 : FVec Ideal S2048x128 .f32)
    (v36 : FVec Ideal S2048x1 .f32) (p : Fin 2048) (q : Fin 128) :
    k0_pay15 v20 v22 v33 v35 v36 (ix2 p q)
      = Ideal.tanh (v35 (ix2 p q) * Ideal.rsqrt (v33 (ix2 p (0 : Fin 1)) + v36 (ix2 p (0 : Fin 1))) * v20 (ix2 (0 : Fin 1) q)
          + v22 (ix2 (0 : Fin 1) q)) := by
  unfold k0_pay15
  simp only [tanh_apply, addf_apply, mulf_apply, rsqrt_apply, colBcast_apply, broadcastTo_1b_ab_apply]

/-! ## A gate the body computes in one piece: the logistic function of a LayerNorm (i and lf) -/

theorem pay16_eq (v15 : FVec Ideal S2048x128 .f32) (v46 v48 : Vec Ideal S1x128 .f32) :
    k0_pay16 v15 v46 v48 = logistic (lnBody v15 (shapeCast S1x128 v46 shapeCasts_S1x128_S1x128) (shapeCast S1x128 v48 shapeCasts_S1x128_S1x128)) := rfl

theorem pay16_at (v15 : FVec Ideal S2048x128 .f32) (v46 v48 : Vec Ideal S1x128 .f32) (p : Fin 2048) (q : Fin 128) :
    k0_pay16 v15 v46 v48 (ix2 p q)
      = Ideal.logistic (layerNorm (fun k => v15 (ix2 p k)) (fun k => v46 (ix2 (0 : Fin 1) k)) (fun k => v48 (ix2 (0 : Fin 1) k)) q) := by
  rw [pay16_eq, logistic_apply, lnBody_at]
  simp only [shapeCast_self]

theorem pay22_eq (v17 : FVec Ideal S2048x128 .f32) (v100 v102 : Vec Ideal S1x128 .f32) :
    k0_pay22 v17 v100 v102 = logistic (lnBody v17 (shapeCast S1x128 v100 shapeCasts_S1x128_S1x128) (shapeCast S1x128 v102 shapeCasts_S1x128_S1x128)) := rfl

theorem pay22_at (v17 : FVec Ideal S2048x128 .f32) (v100 v102 : Vec Ideal S1x128 .f32) (p : Fin 2048) (q : Fin 128) :
    k0_pay22 v17 v100 v102 (ix2 p q)
      = Ideal.logistic (layerNorm (fun k => v17 (ix2 p k)) (fun k => v100 (ix2 (0 : Fin 1) k)) (fun k => v102 (ix2 (0 : Fin 1) k)) q) := by
  rw [pay22_eq, logistic_apply, lnBody_at]
  simp only [shapeCast_self]

/-! ## The output gate (o), computed in three pieces -/

theorem pay19_eq (v16 : FVec Ideal S2048x128 .f32) : k0_pay19 v16 = meanCol v16 := rfl

theorem pay19_at (v16 : FVec Ideal S2048x128 .f32) (p : Fin 2048) (z : Fin 1) :
    k0_pay19 v16 (ix2 p z) = mean fun k => v16 (ix2 p k) := by
  rw [pay19_eq, meanCol_at]

theorem pay20_at (v16 : FVec Ideal S2048x128 .f32) (p : Fin 2048) (q : Fin 128) :
    k0_pay20 v16 (ix2 p q) = mean fun k => v16 (ix2 p k) := by
  unfold k0_pay20
  simp only [colBcast_apply, pay19_at]

theorem pay21_eq (v16 : FVec Ideal S2048x128 .f32) (v74 v76 : FVec Ideal S1x128 .f32) (v80 : FVec Ideal S2048x1 .f32)
    (v81 : FVec Ideal S2048x128 .f32) :
    k0_pay21 v16 v74 v76 v80 v81
      = logistic (addf (mulf (mulf (subf v16 (broadcastTo S2048x128 v80 broadcasts_S2048x1_S2048x128))
          (broadcastTo S2048x128 (rsqrt (addf (meanCol (mulf (subf v16 v81) (subf v16 v81)))
            (broadcast S2048x1 (Scalar.ofBits .f32 0x3727C5AC#32)))) broadcasts_S2048x1_S2048x128))
          (broadcastTo S2048x128 v74 broadcasts_S1x128_S2048x128)) (broadcastTo S2048x128 v76 broadcasts_S1x128_S2048x128)) := rfl

theorem pay21_at (v16 : FVec Ideal S2048x128 .f32) (v74 v76 : FVec Ideal S1x128 .f32) (v80 : FVec Ideal S2048x1 .f32)
    (v81 : FVec Ideal S2048x128 .f32) (p : Fin 2048) (q : Fin 128) :
    k0_pay21 v16 v74 v76 v80 v81 (ix2 p q)
      = Ideal.logistic ((v16 (ix2 p q) - v80 (ix2 p (0 : Fin 1)))
            * Ideal.rsqrt (mean (fun k => (v16 (ix2 p k) - v81 (ix2 p k)) * (v16 (ix2 p k) - v81 (ix2 p k))) + ceps)
            * v74 (ix2 (0 : Fin 1) q) + v76 (ix2 (0 : Fin 1) q)) := by
  rw [pay21_eq]
  unfold ceps
  simp only [logistic_apply, addf_apply, mulf_apply, subf_apply, rsqrt_apply, colBcast_apply, broadcastTo_1b_ab_apply,
    meanCol_at, broadcast_apply, scalar_ofBits_f32]

/-! ## The mix i·u + lf·lc + rf·rc (the rf gate is computed inside this piece) and its row statistics -/

theorem pay23_eq (v1 v3 : Vec Ideal S2048x128 .f32) (v18 v45 v72 v126 : FVec Ideal S2048x128 .f32) (v127 v129 : Vec Ideal S1x128 .f32) :
    k0_pay23 v1 v3 v18 v45 v72 v126 v127 v129
      = addf (addf (mulf v72 v45) (mulf v126 v1))
          (mulf (logistic (lnBody v18 (shapeCast S1x128 v127 shapeCasts_S1x128_S1x128) (shapeCast S1x128 v129 shapeCasts_S1x128_S1x128))) v3) := rfl

theorem pay23_at (v1 v3 : Vec Ideal S2048x128 .f32) (v18 v45 v72 v126 : FVec Ideal S2048x128 .f32) (v127 v129 : Vec Ideal S1x128 .f32)
    (p : Fin 2048) (q : Fin 128) :
    k0_pay23 v1 v3 v18 v45 v72 v126 v127 v129 (ix2 p q)
      = v72 (ix2 p q) * v45 (ix2 p q) + v126 (ix2 p q) * v1 (ix2 p q)
          + Ideal.logistic (layerNorm (fun k => v18 (ix2 p k)) (fun k => v127 (ix2 (0 : Fin 1) k)) (fun k => v129 (ix2 (0 : Fin 1) k)) q)
              * v3 (ix2 p q) := by
  rw [pay23_eq]
  simp only [addf_apply, mulf_apply, logistic_apply, lnBody_at, shapeCast_self]

theorem pay26_eq (v1 v3 : Vec Ideal S2048x128 .f32) (v18 v45 v72 v126 : FVec Ideal S2048x128 .f32) (v127 v129 : Vec Ideal S1x128 .f32) :
    k0_pay26 v1 v3 v18 v45 v72 v126 v127 v129 = meanCol (k0_pay23 v1 v3 v18 v45 v72 v126 v127 v129) := rfl

theorem pay26_at (v1 v3 : Vec Ideal S2048x128 .f32) (v18 v45 v72 v126 : FVec Ideal S2048x128 .f32) (v127 v129 : Vec Ideal S1x128 .f32)
    (p : Fin 2048) (z : Fin 1) :
    k0_pay26 v1 v3 v18 v45 v72 v126 v127 v129 (ix2 p z) = mean fun k => k0_pay23 v1 v3 v18 v45 v72 v126 v127 v129 (ix2 p k) := by
  rw [pay26_eq, meanCol_at]

theorem pay27_eq (v1 v3 : Vec Ideal S2048x128 .f32) (v18 v45 v72 v126 : FVec Ideal S2048x128 .f32) (v127 v129 : Vec Ideal S1x128 .f32) :
    k0_pay27 v1 v3 v18 v45 v72 v126 v127 v129
      = sumCol (mulf (subf (k0_pay23 v1 v3 v18 v45 v72 v126 v127 v129) (broadcastTo S2048x128 (k0_pay26 v1 v3 v18 v45 v72 v126 v127 v129) broadcasts_S2048x1_S2048x128))
          (subf (k0_pay23 v1 v3 v18 v45 v72 v126 v127 v129) (broadcastTo S2048x128 (k0_pay26 v1 v3 v18 v45 v72 v126 v127 v129) broadcasts_S2048x1_S2048x128))) := rfl

theorem pay27_at (v1 v3 : Vec Ideal S2048x128 .f32) (v18 v45 v72 v126 : FVec Ideal S2048x128 .f32) (v127 v129 : Vec Ideal S1x128 .f32)
    (p : Fin 2048) (z : Fin 1) :
    k0_pay27 v1 v3 v18 v45 v72 v126 v127 v129 (ix2 p z)
      = ∑ k : Fin 128, (k0_pay23 v1 v3 v18 v45 v72 v126 v127 v129 (ix2 p k) - mean fun k => k0_pay23 v1 v3 v18 v45 v72 v126 v127 v129 (ix2 p k))
          * (k0_pay23 v1 v3 v18 v45 v72 v126 v127 v129 (ix2 p k) - mean fun k => k0_pay23 v1 v3 v18 v45 v72 v126 v127 v129 (ix2 p k)) := by
  rw [pay27_eq, sumCol_at]
  simp only [mulf_apply, subf_apply, colBcast_apply, pay26_at]

theorem pay28_at (p : Fin 2048) (z : Fin 1) : k0_pay28 (F := Ideal) (ix2 p z) = c128 := rfl

/-! ## The two stored values -/

theorem pay1_at (v158 : FVec Ideal S2048x128 .f32) (v160 v162 : FVec Ideal S1x128 .f32) (v166 v171 v172 : FVec Ideal S2048x1 .f32)
    (p : Fin 2048) (q : Fin 128) :
    k0_pay1 v158 v160 v162 v166 v171 v172 (ix2 p q)
      = (v158 (ix2 p q) - v166 (ix2 p (0 : Fin 1)))
          * Ideal.rsqrt (Ideal.div (v171 (ix2 p (0 : Fin 1))) (v172 (ix2 p (0 : Fin 1))) + ceps)
          * v160 (ix2 (0 : Fin 1) q) + v162 (ix2 (0 : Fin 1) q) := by
  unfold k0_pay1 ceps
  simp only [addf_apply, mulf_apply, subf_apply, divf_apply, rsqrt_apply, colBcast_apply, broadcastTo_1b_ab_apply,
    broadcast_apply, scalar_ofBits_f32]

theorem pay2_at (v99 v158 : FVec Ideal S2048x128 .f32) (v160 v162 : FVec Ideal S1x128 .f32) (v166 v171 v172 : FVec Ideal S2048x1 .f32)
    (p : Fin 2048) (q : Fin 128) :
    k0_pay2 v99 v158 v160 v162 v166 v171 v172 (ix2 p q)
      = v99 (ix2 p q) * Ideal.tanh (k0_pay1 v158 v160 v162 v166 v171 v172 (ix2 p q)) := by
  unfold k0_pay2
  simp only [mulf_apply, tanh_apply]

end Cert.KernelIdeal.Rows

end
-- ==== Proof.KernelOut.lean ====
/-
  The two output blocks of the kernel body at an index.

  The body stores one value into each output block. Read at (p, q), the value stored into the cell block is the
  new cell of row p of the input blocks at column q, and the value stored into the hidden block is the new hidden
  state: the row functions of Cell.lean applied to the block's row p, with the pre-activations in the one-contraction
  form (preBlk). The pieces of KernelGates.lean fit together term for term; nothing is reassociated.
-/
import proofs.«415454_j61366492725519_3_alg».proof.Proof.Gen.KernelIdeal.Frame
import proofs.«415454_j61366492725519_3_alg».proof.Proof.KernelGates

noncomputable section

open scoped BigOperators

namespace Cert.KernelIdeal.Rows

open Cert.KernelIdeal Cert.KernelIdeal.Gen Idealize.ShloMosaic Idealize.ShloMosaic.ValueIdx Cert.TreeCell

/-- The six pairs of LayerNorm rows of a point, as functions of the column. -/
def blkParams (x6 x7 x8 x9 x10 x11 x12 x13 x14 x15 x16 x17 : Vec Ideal S1x128 .f32) : Params :=
  { gu := fun k => x6 (ix2 (0 : Fin 1) k), bu := fun k => x7 (ix2 (0 : Fin 1) k),
    gi := fun k => x8 (ix2 (0 : Fin 1) k), bi := fun k => x9 (ix2 (0 : Fin 1) k),
    go := fun k => x10 (ix2 (0 : Fin 1) k), bo := fun k => x11 (ix2 (0 : Fin 1) k),
    glf := fun k => x12 (ix2 (0 : Fin 1) k), blf := fun k => x13 (ix2 (0 : Fin 1) k),
    grf := fun k => x14 (ix2 (0 : Fin 1) k), brf := fun k => x15 (ix2 (0 : Fin 1) k),
    gc := fun k => x16 (ix2 (0 : Fin 1) k), bc := fun k => x17 (ix2 (0 : Fin 1) k) }

/-- The value stored into the cell block, at (p, q). -/
theorem cellPay_at (x0 x1 x2 x3 : Vec Ideal S2048x128 .f32) (x4 : Vec Ideal S256x640 .bf16) (x5 : Vec Ideal S1x640 .f32) (x6 x7 x8 x9 x10 x11 x12 x13 x14 x15 x16 x17 : Vec Ideal S1x128 .f32) (p : Fin 2048) (q : Fin 128) :
    k0_pay1 (k0_pay23 x1 x3 (k0_pay8 x0 x2 x4 x5) (k0_pay15 (k0_pay9 x6) (k0_pay10 x7) (k0_pay12 x0 x2 x4 x5) (k0_pay13 x0 x2 x4 x5) (k0_pay14 (F := Ideal))) (k0_pay16 (k0_pay5 x0 x2 x4 x5) x8 x9) (k0_pay22 (k0_pay7 x0 x2 x4 x5) x12 x13) x14 x15) (k0_pay24 x16) (k0_pay25 x17) (k0_pay26 x1 x3 (k0_pay8 x0 x2 x4 x5) (k0_pay15 (k0_pay9 x6) (k0_pay10 x7) (k0_pay12 x0 x2 x4 x5) (k0_pay13 x0 x2 x4 x5) (k0_pay14 (F := Ideal))) (k0_pay16 (k0_pay5 x0 x2 x4 x5) x8 x9) (k0_pay22 (k0_pay7 x0 x2 x4 x5) x12 x13) x14 x15) (k0_pay27 x1 x3 (k0_pay8 x0 x2 x4 x5) (k0_pay15 (k0_pay9 x6) (k0_pay10 x7) (k0_pay12 x0 x2 x4 x5) (k0_pay13 x0 x2 x4 x5) (k0_pay14 (F := Ideal))) (k0_pay16 (k0_pay5 x0 x2 x4 x5) x8 x9) (k0_pay22 (k0_pay7 x0 x2 x4 x5) x12 x13) x14 x15) (k0_pay28 (F := Ideal)) (ix2 p q)
      = cellOf (blkParams x6 x7 x8 x9 x10 x11 x12 x13 x14 x15 x16 x17) (preBlk x0 x2 x4 x5 p) (fun k => x1 (ix2 p k)) (fun k => x3 (ix2 p k)) q := by
  rw [pay1_at]
  simp only [pay23_at, pay24_eq, pay25_eq, pay26_at, pay27_at, pay28_at, pay8_at, pay15_at, pay9_eq, pay10_eq, pay12_at,
    pay13_at, pay14_at, pay16_at, pay22_at, pay5_at, pay7_at, cellOf, mix, layerNorm, var, mean, blkParams]

/-- The value stored into the hidden block, at (p, q). -/
theorem hiddenPay_at (x0 x1 x2 x3 : Vec Ideal S2048x128 .f32) (x4 : Vec Ideal S256x640 .bf16) (x5 : Vec Ideal S1x640 .f32) (x6 x7 x8 x9 x10 x11 x12 x13 x14 x15 x16 x17 : Vec Ideal S1x128 .f32) (p : Fin 2048) (q : Fin 128) :
    k0_pay2 (k0_pay21 (k0_pay6 x0 x2 x4 x5) (k0_pay17 x10) (k0_pay18 x11) (k0_pay19 (k0_pay6 x0 x2 x4 x5)) (k0_pay20 (k0_pay6 x0 x2 x4 x5))) (k0_pay23 x1 x3 (k0_pay8 x0 x2 x4 x5) (k0_pay15 (k0_pay9 x6) (k0_pay10 x7) (k0_pay12 x0 x2 x4 x5) (k0_pay13 x0 x2 x4 x5) (k0_pay14 (F := Ideal))) (k0_pay16 (k0_pay5 x0 x2 x4 x5) x8 x9) (k0_pay22 (k0_pay7 x0 x2 x4 x5) x12 x13) x14 x15) (k0_pay24 x16) (k0_pay25 x17) (k0_pay26 x1 x3 (k0_pay8 x0 x2 x4 x5) (k0_pay15 (k0_pay9 x6) (k0_pay10 x7) (k0_pay12 x0 x2 x4 x5) (k0_pay13 x0 x2 x4 x5) (k0_pay14 (F := Ideal))) (k0_pay16 (k0_pay5 x0 x2 x4 x5) x8 x9) (k0_pay22 (k0_pay7 x0 x2 x4 x5) x12 x13) x14 x15) (k0_pay27 x1 x3 (k0_pay8 x0 x2 x4 x5) (k0_pay15 (k0_pay9 x6) (k0_pay10 x7) (k0_pay12 x0 x2 x4 x5) (k0_pay13 x0 x2 x4 x5) (k0_pay14 (F := Ideal))) (k0_pay16 (k0_pay5 x0 x2 x4 x5) x8 x9) (k0_pay22 (k0_pay7 x0 x2 x4 x5) x12 x13) x14 x15) (k0_pay28 (F := Ideal)) (ix2 p q)
      = hiddenOf (blkParams x6 x7 x8 x9 x10 x11 x12 x13 x14 x15 x16 x17) (preBlk x0 x2 x4 x5 p) (fun k => x1 (ix2 p k)) (fun k => x3 (ix2 p k)) q := by
  rw [pay2_at, cellPay_at x0 x1 x2 x3 x4 x5 x6 x7 x8 x9 x10 x11 x12 x13 x14 x15 x16 x17, pay21_at]
  simp only [pay6_at, pay17_eq, pay18_eq, pay19_at, pay20_at, hiddenOf, layerNorm, var, mean, blkParams]

theorem hz : (![0, 0] : Fin 2 → Nat) = fun _ => 0 := funext fun a => by fin_cases a <;> rfl

/-- The cell block after the body, at (p, q). -/
theorem out19_at (x0 x1 x2 x3 : Vec Ideal S2048x128 .f32) (x4 : Vec Ideal S256x640 .bf16) (x5 : Vec Ideal S1x640 .f32) (x6 x7 x8 x9 x10 x11 x12 x13 x14 x15 x16 x17 : Vec Ideal S1x128 .f32) (p : Fin 2048) (q : Fin 128) :
    out0_19 x0 x1 x2 x3 x4 x5 x6 x7 x8 x9 x10 x11 x12 x13 x14 x15 x16 x17 (ix2 p q) = cellOf (blkParams x6 x7 x8 x9 x10 x11 x12 x13 x14 x15 x16 x17) (preBlk x0 x2 x4 x5 p) (fun k => x1 (ix2 p k)) (fun k => x3 (ix2 p k)) q := by
  unfold out0_19
  rw [View.canon_unit_zero hz]
  simp only [View.ld_unit_zero (S := S2048x128) hz, View.ld_unit_zero (S := S256x640) hz, View.ld_unit_zero (S := S1x640) hz, View.ld_unit_zero (S := S1x128) hz]
  exact cellPay_at x0 x1 x2 x3 x4 x5 x6 x7 x8 x9 x10 x11 x12 x13 x14 x15 x16 x17 p q

/-- The hidden block after the body, at (p, q). -/
theorem out18_at (x0 x1 x2 x3 : Vec Ideal S2048x128 .f32) (x4 : Vec Ideal S256x640 .bf16) (x5 : Vec Ideal S1x640 .f32) (x6 x7 x8 x9 x10 x11 x12 x13 x14 x15 x16 x17 : Vec Ideal S1x128 .f32) (p : Fin 2048) (q : Fin 128) :
    out0_18 x0 x1 x2 x3 x4 x5 x6 x7 x8 x9 x10 x11 x12 x13 x14 x15 x16 x17 (ix2 p q) = hiddenOf (blkParams x6 x7 x8 x9 x10 x11 x12 x13 x14 x15 x16 x17) (preBlk x0 x2 x4 x5 p) (fun k => x1 (ix2 p k)) (fun k => x3 (ix2 p k)) q := by
  unfold out0_18
  rw [View.canon_unit_zero hz]
  simp only [View.ld_unit_zero (S := S2048x128) hz, View.ld_unit_zero (S := S256x640) hz, View.ld_unit_zero (S := S1x640) hz, View.ld_unit_zero (S := S1x128) hz]
  exact hiddenPay_at x0 x1 x2 x3 x4 x5 x6 x7 x8 x9 x10 x11 x12 x13 x14 x15 x16 x17 p q

end Cert.KernelIdeal.Rows

end
-- ==== Proof.KernelArray.lean ====
/-
  From the blocks to the two result arrays of the kernel.

  The grid has 64 points; point t stages rows 2048 t .. 2048 t + 2047 of the four state arrays, the whole stacked
  weight array, the bias row and the twelve LayerNorm rows, and writes back rows 2048 t .. 2048 t + 2047 of the two
  result arrays. The stacked weight array is the two weight tables one above the other (rows k < 128 from the first,
  the others from the second), and the bias and LayerNorm rows are the [640] and [128] arguments seen as [1,640] and
  [1,128]. So row p of point t's input blocks is row 2048 t + p of the arrays, the block's pre-activations are the
  one-contraction form of that row's, and what the point writes back is block t of the result arrays of Cell.lean.
  The 64 blocks cover every row (row r lies in block r / 2048), so the arrays end holding exactly those functions.
-/
import proofs.«415454_j61366492725519_3_alg».proof.Proof.KernelIdealValue
import proofs.«415454_j61366492725519_3_alg».proof.Proof.KernelOut
import Idealize.ShloMosaic.Lib.Pipeline.Value
import Idealize.ShloMosaic.Lib.StableHlo.Run

set_option maxRecDepth 16384

noncomputable section

open scoped BigOperators

namespace Cert.KernelIdeal.Arr

open Cert.KernelIdeal Cert.KernelIdeal.Gen Cert.KernelIdeal.ValueP Cert.KernelIdeal.Rows Idealize.ShloMosaic Idealize.ShloMosaic.TcCoe
open Idealize.SL.Sem Idealize.ShloMosaic.ValueIdx Cert.TreeCell
open Idealize.ShloMosaic.Pipeline (Dat)

variable (m : (ℓ : Loc nD τ sig) → Buf (Elt Ideal) ℓ) (ρ : Dev nD → PrngReg)

/-! ## The index maps over the grid, decided -/

theorem idx_facts : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0
    ∧ win0_18.index t (0 : Fin 2) = t.val
    ∧ win0_18.index t (1 : Fin 2) = 0
    ∧ win0_19.index t (0 : Fin 2) = t.val
    ∧ win0_19.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = 0
    ∧ win0_12.index t (1 : Fin 2) = 0
    ∧ win0_13.index t (0 : Fin 2) = 0
    ∧ win0_13.index t (1 : Fin 2) = 0
    ∧ win0_14.index t (0 : Fin 2) = 0
    ∧ win0_14.index t (1 : Fin 2) = 0
    ∧ win0_15.index t (0 : Fin 2) = 0
    ∧ win0_15.index t (1 : Fin 2) = 0
    ∧ win0_16.index t (0 : Fin 2) = 0
    ∧ win0_16.index t (1 : Fin 2) = 0
    ∧ win0_17.index t (0 : Fin 2) = 0
    ∧ win0_17.index t (1 : Fin 2) = 0 :=
  (by decide +kernel : ∀ t : Fin grid0.N, _)

theorem t_lt (t : Fin cfg0.N) : t.val < 64 := lt_of_lt_of_eq t.isLt N_0

/-- The array row that row p of point t's blocks is. -/
def rowAt (t : Fin cfg0.N) (p : Fin 2048) : Fin 131072 :=
  ⟨t.val * 2048 + p.val, by have := t_lt t; have := p.isLt; omega⟩

/-! ## The arrays the host operations write before the region -/

/-- The two weight tables one above the other. -/
def Wcat (a b : FVec Ideal S128x640 .f32) : Vec Ideal S256x640 .bf16 :=
  concatenate S256x640 0 [⟨S128x640, (truncf (F := Ideal) .bf16 a bitsLt_bf16_f32 : FVec Ideal S128x640 .bf16)⟩,
      ⟨S128x640, (truncf (F := Ideal) .bf16 b bitsLt_bf16_f32 : FVec Ideal S128x640 .bf16)⟩]
    concatenates_S128x640_S128x640_S256x640_d0

theorem Wcat_at (a b : FVec Ideal S128x640 .f32) (k : Fin 256) (cc : Fin 640) :
    Wcat a b (ix2 k cc) = side (fun j => a (ix2 j cc)) (fun j => b (ix2 j cc)) k := by
  unfold side Wcat
  by_cases hk : k.val < 128
  · rw [dif_pos hk]
    exact concatenate_pair_apply_left 0 _ _ concatenates_S128x640_S128x640_S256x640_d0 (ix2 k cc) rfl (ix2 ⟨k.val, hk⟩ cc) (fun d => by
      match d with
      | ⟨0, _⟩ => rfl
      | ⟨1, _⟩ => rfl)
  · rw [dif_neg hk]
    refine concatenate_pair_apply_right 0 _ _ concatenates_S128x640_S128x640_S256x640_d0 (ix2 k cc) rfl rfl
      (ix2 ⟨k.val - 128, by have := k.isLt; omega⟩ cc) (fun d hd => ?_) ?_
    · match d with
      | ⟨0, _⟩ => exact absurd rfl hd
      | ⟨1, _⟩ => rfl
    · show (k.val - 128) + 128 = k.val
      omega

/-- A [640] vector seen as a [1,640] row, and a [128] vector as a [1,128] row. -/
def biasCast (g : Vec Ideal S640 .f32) : Vec Ideal S1x640 .f32 := shapeCast S1x640 g shapeCasts_S640_S1x640
def rowCast (g : Vec Ideal S128 .f32) : Vec Ideal S1x128 .f32 := shapeCast S1x128 g shapeCasts_S128_S1x128

theorem biasCast_at (g : Vec Ideal S640 .f32) (u : Fin 1) (k : Fin 640) : biasCast g (ix2 u k) = g (ix1 k) :=
  shapeCast_a_1a_apply g _ u k
theorem rowCast_at (g : Vec Ideal S128 .f32) (u : Fin 1) (k : Fin 128) : rowCast g (ix2 u k) = g (ix1 k) :=
  shapeCast_a_1a_apply g _ u k

theorem V_main_v2 (c : Dev nD) : (V m c main_v2 : Vec Ideal S256x640 .bf16)
    = Wcat (m ((c : Thread nD τ).loc main_arg4)) (m ((c : Thread nD τ).loc main_arg5)) := by
  dsimp only [Gen.V, Gen.hostOps0]
  after_results
  rfl

theorem V_main_v3 (c : Dev nD) : (V m c main_v3 : Vec Ideal S1x640 .f32) = biasCast (m ((c : Thread nD τ).loc main_arg6)) := by
  dsimp only [Gen.V, Gen.hostOps0]
  after_results
  rfl

/-! ## Each window's block at a point, read at an index of the arrays -/

theorem blk0_at (c : Dev nD) (t : Fin cfg0.N) (p : Fin 2048) (k : Fin 128) :
    iblk m c 0 t (ix2 p k) = ((m ((c : Thread nD τ).loc main_arg0)) : Vec Ideal S131072x128 .f32) (ix2 (rowAt t p) k) := by
  unfold iblk
  rw [View.read_apply]
  show V m c main_arg0 (((cfg0.win 0).blk t).view.emb (ix2 p k)) = _
  rw [V_main_arg0]
  refine congrArg _ ?_
  funext a; apply Fin.ext
  obtain ⟨e0a, e0b, -, -, -, -, -, -, -, -, -, -, -, -, -, -, -, -, -, -, -, -, -, -, -, -, -, -, -, -, -, -, -, -, -, -, -, -, -, -⟩ := idx_facts t
  match a with
  | ⟨0, _⟩ => show win0_0.index t (0 : Fin 2) * 2048 + 1 * p.val = t.val * 2048 + p.val; omega
  | ⟨1, _⟩ => show win0_0.index t (1 : Fin 2) * 128 + 1 * k.val = k.val; omega

theorem blk1_at (c : Dev nD) (t : Fin cfg0.N) (p : Fin 2048) (k : Fin 128) :
    iblk m c 1 t (ix2 p k) = ((m ((c : Thread nD τ).loc main_arg1)) : Vec Ideal S131072x128 .f32) (ix2 (rowAt t p) k) := by
  unfold iblk
  rw [View.read_apply]
  show V m c main_arg1 (((cfg0.win 1).blk t).view.emb (ix2 p k)) = _
  rw [V_main_arg1]
  refine congrArg _ ?_
  funext a; apply Fin.ext
  obtain ⟨-, -, e1a, e1b, -, -, -, -, -, -, -, -, -, -, -, -, -, -, -, -, -, -, -, -, -, -, -, -, -, -, -, -, -, -, -, -, -, -, -, -⟩ := idx_facts t
  match a with
  | ⟨0, _⟩ => show win0_1.index t (0 : Fin 2) * 2048 + 1 * p.val = t.val * 2048 + p.val; omega
  | ⟨1, _⟩ => show win0_1.index t (1 : Fin 2) * 128 + 1 * k.val = k.val; omega

theorem blk2_at (c : Dev nD) (t : Fin cfg0.N) (p : Fin 2048) (k : Fin 128) :
    iblk m c 2 t (ix2 p k) = ((m ((c : Thread nD τ).loc main_arg2)) : Vec Ideal S131072x128 .f32) (ix2 (rowAt t p) k) := by
  unfold iblk
  rw [View.read_apply]
  show V m c main_arg2 (((cfg0.win 2).blk t).view.emb (ix2 p k)) = _
  rw [V_main_arg2]
  refine congrArg _ ?_
  funext a; apply Fin.ext
  obtain ⟨-, -, -, -, e2a, e2b, -, -, -, -, -, -, -, -, -, -, -, -, -, -, -, -, -, -, -, -, -, -, -, -, -, -, -, -, -, -, -, -, -, -⟩ := idx_facts t
  match a with
  | ⟨0, _⟩ => show win0_2.index t (0 : Fin 2) * 2048 + 1 * p.val = t.val * 2048 + p.val; omega
  | ⟨1, _⟩ => show win0_2.index t (1 : Fin 2) * 128 + 1 * k.val = k.val; omega

theorem blk3_at (c : Dev nD) (t : Fin cfg0.N) (p : Fin 2048) (k : Fin 128) :
    iblk m c 3 t (ix2 p k) = ((m ((c : Thread nD τ).loc main_arg3)) : Vec Ideal S131072x128 .f32) (ix2 (rowAt t p) k) := by
  unfold iblk
  rw [View.read_apply]
  show V m c main_arg3 (((cfg0.win 3).blk t).view.emb (ix2 p k)) = _
  rw [V_main_arg3]
  refine congrArg _ ?_
  funext a; apply Fin.ext
  obtain ⟨-, -, -, -, -, -, e3a, e3b, -, -, -, -, -, -, -, -, -, -, -, -, -, -, -, -, -, -, -, -, -, -, -, -, -, -, -, -, -, -, -, -⟩ := idx_facts t
  match a with
  | ⟨0, _⟩ => show win0_3.index t (0 : Fin 2) * 2048 + 1 * p.val = t.val * 2048 + p.val; omega
  | ⟨1, _⟩ => show win0_3.index t (1 : Fin 2) * 128 + 1 * k.val = k.val; omega

theorem blk4_at (c : Dev nD) (t : Fin cfg0.N) (k : Fin 256) (cc : Fin 640) :
    iblk m c 4 t (ix2 k cc) = side (fun j => ((m ((c : Thread nD τ).loc main_arg4)) : Vec Ideal S128x640 .f32) (ix2 j cc))
      (fun j => ((m ((c : Thread nD τ).loc main_arg5)) : Vec Ideal S128x640 .f32) (ix2 j cc)) k := by
  unfold iblk
  rw [View.read_apply]
  show V m c main_v2 (((cfg0.win 4).blk t).view.emb (ix2 k cc)) = _
  rw [V_main_v2, ← Wcat_at]
  refine congrArg _ ?_
  funext a; apply Fin.ext
  obtain ⟨-, -, -, -, -, -, -, -, -, -, -, -, e4a, e4b, -, -, -, -, -, -, -, -, -, -, -, -, -, -, -, -, -, -, -, -, -, -, -, -, -, -⟩ := idx_facts t
  match a with
  | ⟨0, _⟩ => show win0_4.index t (0 : Fin 2) * 256 + 1 * k.val = k.val; omega
  | ⟨1, _⟩ => show win0_4.index t (1 : Fin 2) * 640 + 1 * cc.val = cc.val; omega

theorem blk5_at (c : Dev nD) (t : Fin cfg0.N) (k : Fin 640) :
    iblk m c 5 t (ix2 (0 : Fin 1) k) = ((m ((c : Thread nD τ).loc main_arg6)) : Vec Ideal S640 .f32) (ix1 k) := by
  unfold iblk
  rw [View.read_apply]
  show V m c main_v3 (((cfg0.win 5).blk t).view.emb (ix2 (0 : Fin 1) k)) = _
  rw [V_main_v3, ← biasCast_at (m ((c : Thread nD τ).loc main_arg6)) (0 : Fin 1) k]
  refine congrArg _ ?_
  funext a; apply Fin.ext
  obtain ⟨-, -, -, -, -, -, -, -, -, -, -, -, -, -, e5a, e5b, -, -, -, -, -, -, -, -, -, -, -, -, -, -, -, -, -, -, -, -, -, -, -, -⟩ := idx_facts t
  match a with
  | ⟨0, _⟩ => show win0_5.index t (0 : Fin 2) * 1 + 1 * 0 = 0; omega
  | ⟨1, _⟩ => show win0_5.index t (1 : Fin 2) * 640 + 1 * k.val = k.val; omega

theorem V_main_v4 (c : Dev nD) : (V m c main_v4 : Vec Ideal S1x128 .f32) = rowCast (m ((c : Thread nD τ).loc main_arg7)) := by
  dsimp only [Gen.V, Gen.hostOps0]
  after_results
  rfl

theorem blk6_at (c : Dev nD) (t : Fin cfg0.N) (k : Fin 128) :
    iblk m c 6 t (ix2 (0 : Fin 1) k) = ((m ((c : Thread nD τ).loc main_arg7)) : Vec Ideal S128 .f32) (ix1 k) := by
  unfold iblk
  rw [View.read_apply]
  show V m c main_v4 (((cfg0.win 6).blk t).view.emb (ix2 (0 : Fin 1) k)) = _
  rw [V_main_v4, ← rowCast_at (m ((c : Thread nD τ).loc main_arg7)) (0 : Fin 1) k]
  refine congrArg _ ?_
  funext a; apply Fin.ext
  obtain ⟨-, -, -, -, -, -, -, -, -, -, -, -, -, -, -, -, e6a, e6b, -, -, -, -, -, -, -, -, -, -, -, -, -, -, -, -, -, -, -, -, -, -⟩ := idx_facts t
  match a with
  | ⟨0, _⟩ => show win0_6.index t (0 : Fin 2) * 1 + 1 * 0 = 0; omega
  | ⟨1, _⟩ => show win0_6.index t (1 : Fin 2) * 128 + 1 * k.val = k.val; omega

theorem V_main_v5 (c : Dev nD) : (V m c main_v5 : Vec Ideal S1x128 .f32) = rowCast (m ((c : Thread nD τ).loc main_arg8)) := by
  dsimp only [Gen.V, Gen.hostOps0]
  after_results
  rfl

theorem blk7_at (c : Dev nD) (t : Fin cfg0.N) (k : Fin 128) :
    iblk m c 7 t (ix2 (0 : Fin 1) k) = ((m ((c : Thread nD τ).loc main_arg8)) : Vec Ideal S128 .f32) (ix1 k) := by
  unfold iblk
  rw [View.read_apply]
  show V m c main_v5 (((cfg0.win 7).blk t).view.emb (ix2 (0 : Fin 1) k)) = _
  rw [V_main_v5, ← rowCast_at (m ((c : Thread nD τ).loc main_arg8)) (0 : Fin 1) k]
  refine congrArg _ ?_
  funext a; apply Fin.ext
  obtain ⟨-, -, -, -, -, -, -, -, -, -, -, -, -, -, -, -, -, -, e7a, e7b, -, -, -, -, -, -, -, -, -, -, -, -, -, -, -, -, -, -, -, -⟩ := idx_facts t
  match a with
  | ⟨0, _⟩ => show win0_7.index t (0 : Fin 2) * 1 + 1 * 0 = 0; omega
  | ⟨1, _⟩ => show win0_7.index t (1 : Fin 2) * 128 + 1 * k.val = k.val; omega

theorem V_main_v6 (c : Dev nD) : (V m c main_v6 : Vec Ideal S1x128 .f32) = rowCast (m ((c : Thread nD τ).loc main_arg9)) := by
  dsimp only [Gen.V, Gen.hostOps0]
  after_results
  rfl

theorem blk8_at (c : Dev nD) (t : Fin cfg0.N) (k : Fin 128) :
    iblk m c 8 t (ix2 (0 : Fin 1) k) = ((m ((c : Thread nD τ).loc main_arg9)) : Vec Ideal S128 .f32) (ix1 k) := by
  unfold iblk
  rw [View.read_apply]
  show V m c main_v6 (((cfg0.win 8).blk t).view.emb (ix2 (0 : Fin 1) k)) = _
  rw [V_main_v6, ← rowCast_at (m ((c : Thread nD τ).loc main_arg9)) (0 : Fin 1) k]
  refine congrArg _ ?_
  funext a; apply Fin.ext
  obtain ⟨-, -, -, -, -, -, -, -, -, -, -, -, -, -, -, -, -, -, -, -, e8a, e8b, -, -, -, -, -, -, -, -, -, -, -, -, -, -, -, -, -, -⟩ := idx_facts t
  match a with
  | ⟨0, _⟩ => show win0_8.index t (0 : Fin 2) * 1 + 1 * 0 = 0; omega
  | ⟨1, _⟩ => show win0_8.index t (1 : Fin 2) * 128 + 1 * k.val = k.val; omega

theorem V_main_v7 (c : Dev nD) : (V m c main_v7 : Vec Ideal S1x128 .f32) = rowCast (m ((c : Thread nD τ).loc main_arg10)) := by
  dsimp only [Gen.V, Gen.hostOps0]
  after_results
  rfl

theorem blk9_at (c : Dev nD) (t : Fin cfg0.N) (k : Fin 128) :
    iblk m c 9 t (ix2 (0 : Fin 1) k) = ((m ((c : Thread nD τ).loc main_arg10)) : Vec Ideal S128 .f32) (ix1 k) := by
  unfold iblk
  rw [View.read_apply]
  show V m c main_v7 (((cfg0.win 9).blk t).view.emb (ix2 (0 : Fin 1) k)) = _
  rw [V_main_v7, ← rowCast_at (m ((c : Thread nD τ).loc main_arg10)) (0 : Fin 1) k]
  refine congrArg _ ?_
  funext a; apply Fin.ext
  obtain ⟨-, -, -, -, -, -, -, -, -, -, -, -, -, -, -, -, -, -, -, -, -, -, e9a, e9b, -, -, -, -, -, -, -, -, -, -, -, -, -, -, -, -⟩ := idx_facts t
  match a with
  | ⟨0, _⟩ => show win0_9.index t (0 : Fin 2) * 1 + 1 * 0 = 0; omega
  | ⟨1, _⟩ => show win0_9.index t (1 : Fin 2) * 128 + 1 * k.val = k.val; omega

theorem V_main_v8 (c : Dev nD) : (V m c main_v8 : Vec Ideal S1x128 .f32) = rowCast (m ((c : Thread nD τ).loc main_arg11)) := by
  dsimp only [Gen.V, Gen.hostOps0]
  after_results
  rfl

theorem blk10_at (c : Dev nD) (t : Fin cfg0.N) (k : Fin 128) :
    iblk m c 10 t (ix2 (0 : Fin 1) k) = ((m ((c : Thread nD τ).loc main_arg11)) : Vec Ideal S128 .f32) (ix1 k) := by
  unfold iblk
  rw [View.read_apply]
  show V m c main_v8 (((cfg0.win 10).blk t).view.emb (ix2 (0 : Fin 1) k)) = _
  rw [V_main_v8, ← rowCast_at (m ((c : Thread nD τ).loc main_arg11)) (0 : Fin 1) k]
  refine congrArg _ ?_
  funext a; apply Fin.ext
  obtain ⟨-, -, -, -, -, -, -, -, -, -, -, -, -, -, -, -, -, -, -, -, -, -, -, -, e10a, e10b, -, -, -, -, -, -, -, -, -, -, -, -, -, -⟩ := idx_facts t
  match a with
  | ⟨0, _⟩ => show win0_10.index t (0 : Fin 2) * 1 + 1 * 0 = 0; omega
  | ⟨1, _⟩ => show win0_10.index t (1 : Fin 2) * 128 + 1 * k.val = k.val; omega

theorem V_main_v9 (c : Dev nD) : (V m c main_v9 : Vec Ideal S1x128 .f32) = rowCast (m ((c : Thread nD τ).loc main_arg12)) := by
  dsimp only [Gen.V, Gen.hostOps0]
  after_results
  rfl

theorem blk11_at (c : Dev nD) (t : Fin cfg0.N) (k : Fin 128) :
    iblk m c 11 t (ix2 (0 : Fin 1) k) = ((m ((c : Thread nD τ).loc main_arg12)) : Vec Ideal S128 .f32) (ix1 k) := by
  unfold iblk
  rw [View.read_apply]
  show V m c main_v9 (((cfg0.win 11).blk t).view.emb (ix2 (0 : Fin 1) k)) = _
  rw [V_main_v9, ← rowCast_at (m ((c : Thread nD τ).loc main_arg12)) (0 : Fin 1) k]
  refine congrArg _ ?_
  funext a; apply Fin.ext
  obtain ⟨-, -, -, -, -, -, -, -, -, -, -, -, -, -, -, -, -, -, -, -, -, -, -, -, -, -, e11a, e11b, -, -, -, -, -, -, -, -, -, -, -, -⟩ := idx_facts t
  match a with
  | ⟨0, _⟩ => show win0_11.index t (0 : Fin 2) * 1 + 1 * 0 = 0; omega
  | ⟨1, _⟩ => show win0_11.index t (1 : Fin 2) * 128 + 1 * k.val = k.val; omega

theorem V_main_v10 (c : Dev nD) : (V m c main_v10 : Vec Ideal S1x128 .f32) = rowCast (m ((c : Thread nD τ).loc main_arg13)) := by
  dsimp only [Gen.V, Gen.hostOps0]
  after_results
  rfl

theorem blk12_at (c : Dev nD) (t : Fin cfg0.N) (k : Fin 128) :
    iblk m c 12 t (ix2 (0 : Fin 1) k) = ((m ((c : Thread nD τ).loc main_arg13)) : Vec Ideal S128 .f32) (ix1 k) := by
  unfold iblk
  rw [View.read_apply]
  show V m c main_v10 (((cfg0.win 12).blk t).view.emb (ix2 (0 : Fin 1) k)) = _
  rw [V_main_v10, ← rowCast_at (m ((c : Thread nD τ).loc main_arg13)) (0 : Fin 1) k]
  refine congrArg _ ?_
  funext a; apply Fin.ext
  obtain ⟨-, -, -, -, -, -, -, -, -, -, -, -, -, -, -, -, -, -, -, -, -, -, -, -, -, -, -, -, e12a, e12b, -, -, -, -, -, -, -, -, -, -⟩ := idx_facts t
  match a with
  | ⟨0, _⟩ => show win0_12.index t (0 : Fin 2) * 1 + 1 * 0 = 0; omega
  | ⟨1, _⟩ => show win0_12.index t (1 : Fin 2) * 128 + 1 * k.val = k.val; omega

theorem V_main_v11 (c : Dev nD) : (V m c main_v11 : Vec Ideal S1x128 .f32) = rowCast (m ((c : Thread nD τ).loc main_arg14)) := by
  dsimp only [Gen.V, Gen.hostOps0]
  after_results
  rfl

theorem blk13_at (c : Dev nD) (t : Fin cfg0.N) (k : Fin 128) :
    iblk m c 13 t (ix2 (0 : Fin 1) k) = ((m ((c : Thread nD τ).loc main_arg14)) : Vec Ideal S128 .f32) (ix1 k) := by
  unfold iblk
  rw [View.read_apply]
  show V m c main_v11 (((cfg0.win 13).blk t).view.emb (ix2 (0 : Fin 1) k)) = _
  rw [V_main_v11, ← rowCast_at (m ((c : Thread nD τ).loc main_arg14)) (0 : Fin 1) k]
  refine congrArg _ ?_
  funext a; apply Fin.ext
  obtain ⟨-, -, -, -, -, -, -, -, -, -, -, -, -, -, -, -, -, -, -, -, -, -, -, -, -, -, -, -, -, -, e13a, e13b, -, -, -, -, -, -, -, -⟩ := idx_facts t
  match a with
  | ⟨0, _⟩ => show win0_13.index t (0 : Fin 2) * 1 + 1 * 0 = 0; omega
  | ⟨1, _⟩ => show win0_13.index t (1 : Fin 2) * 128 + 1 * k.val = k.val; omega

theorem V_main_v12 (c : Dev nD) : (V m c main_v12 : Vec Ideal S1x128 .f32) = rowCast (m ((c : Thread nD τ).loc main_arg15)) := by
  dsimp only [Gen.V, Gen.hostOps0]
  after_results
  rfl

theorem blk14_at (c : Dev nD) (t : Fin cfg0.N) (k : Fin 128) :
    iblk m c 14 t (ix2 (0 : Fin 1) k) = ((m ((c : Thread nD τ).loc main_arg15)) : Vec Ideal S128 .f32) (ix1 k) := by
  unfold iblk
  rw [View.read_apply]
  show V m c main_v12 (((cfg0.win 14).blk t).view.emb (ix2 (0 : Fin 1) k)) = _
  rw [V_main_v12, ← rowCast_at (m ((c : Thread nD τ).loc main_arg15)) (0 : Fin 1) k]
  refine congrArg _ ?_
  funext a; apply Fin.ext
  obtain ⟨-, -, -, -, -, -, -, -, -, -, -, -, -, -, -, -, -, -, -, -, -, -, -, -, -, -, -, -, -, -, -, -, e14a, e14b, -, -, -, -, -, -⟩ := idx_facts t
  match a with
  | ⟨0, _⟩ => show win0_14.index t (0 : Fin 2) * 1 + 1 * 0 = 0; omega
  | ⟨1, _⟩ => show win0_14.index t (1 : Fin 2) * 128 + 1 * k.val = k.val; omega

theorem V_main_v13 (c : Dev nD) : (V m c main_v13 : Vec Ideal S1x128 .f32) = rowCast (m ((c : Thread nD τ).loc main_arg16)) := by
  dsimp only [Gen.V, Gen.hostOps0]
  after_results
  rfl

theorem blk15_at (c : Dev nD) (t : Fin cfg0.N) (k : Fin 128) :
    iblk m c 15 t (ix2 (0 : Fin 1) k) = ((m ((c : Thread nD τ).loc main_arg16)) : Vec Ideal S128 .f32) (ix1 k) := by
  unfold iblk
  rw [View.read_apply]
  show V m c main_v13 (((cfg0.win 15).blk t).view.emb (ix2 (0 : Fin 1) k)) = _
  rw [V_main_v13, ← rowCast_at (m ((c : Thread nD τ).loc main_arg16)) (0 : Fin 1) k]
  refine congrArg _ ?_
  funext a; apply Fin.ext
  obtain ⟨-, -, -, -, -, -, -, -, -, -, -, -, -, -, -, -, -, -, -, -, -, -, -, -, -, -, -, -, -, -, -, -, -, -, e15a, e15b, -, -, -, -⟩ := idx_facts t
  match a with
  | ⟨0, _⟩ => show win0_15.index t (0 : Fin 2) * 1 + 1 * 0 = 0; omega
  | ⟨1, _⟩ => show win0_15.index t (1 : Fin 2) * 128 + 1 * k.val = k.val; omega

theorem V_main_v14 (c : Dev nD) : (V m c main_v14 : Vec Ideal S1x128 .f32) = rowCast (m ((c : Thread nD τ).loc main_arg17)) := by
  dsimp only [Gen.V, Gen.hostOps0]
  after_results
  rfl

theorem blk16_at (c : Dev nD) (t : Fin cfg0.N) (k : Fin 128) :
    iblk m c 16 t (ix2 (0 : Fin 1) k) = ((m ((c : Thread nD τ).loc main_arg17)) : Vec Ideal S128 .f32) (ix1 k) := by
  unfold iblk
  rw [View.read_apply]
  show V m c main_v14 (((cfg0.win 16).blk t).view.emb (ix2 (0 : Fin 1) k)) = _
  rw [V_main_v14, ← rowCast_at (m ((c : Thread nD τ).loc main_arg17)) (0 : Fin 1) k]
  refine congrArg _ ?_
  funext a; apply Fin.ext
  obtain ⟨-, -, -, -, -, -, -, -, -, -, -, -, -, -, -, -, -, -, -, -, -, -, -, -, -, -, -, -, -, -, -, -, -, -, -, -, e16a, e16b, -, -⟩ := idx_facts t
  match a with
  | ⟨0, _⟩ => show win0_16.index t (0 : Fin 2) * 1 + 1 * 0 = 0; omega
  | ⟨1, _⟩ => show win0_16.index t (1 : Fin 2) * 128 + 1 * k.val = k.val; omega

theorem V_main_v15 (c : Dev nD) : (V m c main_v15 : Vec Ideal S1x128 .f32) = rowCast (m ((c : Thread nD τ).loc main_arg18)) := by
  dsimp only [Gen.V, Gen.hostOps0]
  after_results
  rfl

theorem blk17_at (c : Dev nD) (t : Fin cfg0.N) (k : Fin 128) :
    iblk m c 17 t (ix2 (0 : Fin 1) k) = ((m ((c : Thread nD τ).loc main_arg18)) : Vec Ideal S128 .f32) (ix1 k) := by
  unfold iblk
  rw [View.read_apply]
  show V m c main_v15 (((cfg0.win 17).blk t).view.emb (ix2 (0 : Fin 1) k)) = _
  rw [V_main_v15, ← rowCast_at (m ((c : Thread nD τ).loc main_arg18)) (0 : Fin 1) k]
  refine congrArg _ ?_
  funext a; apply Fin.ext
  obtain ⟨-, -, -, -, -, -, -, -, -, -, -, -, -, -, -, -, -, -, -, -, -, -, -, -, -, -, -, -, -, -, -, -, -, -, -, -, -, -, e17a, e17b⟩ := idx_facts t
  match a with
  | ⟨0, _⟩ => show win0_17.index t (0 : Fin 2) * 1 + 1 * 0 = 0; omega
  | ⟨1, _⟩ => show win0_17.index t (1 : Fin 2) * 128 + 1 * k.val = k.val; omega

/-! ## A point's rows are the arrays' rows -/

/-- Over any blocks whose rows are known: the block's pre-activations of row p are those of array row r. -/
theorem pre_eq_of (x0 x2 : Vec Ideal S2048x128 .f32) (x4 : Vec Ideal S256x640 .bf16) (x5 : Vec Ideal S1x640 .f32)
    (A0 A2 : SState.Idx → EReal) (A4 A5 : SWeight.Idx → EReal) (A6 : SBias.Idx → EReal) (p : Fin 2048) (r : Fin 131072)
    (h0 : ∀ j, x0 (ix2 p j) = A0 (ix2 r j)) (h2 : ∀ j, x2 (ix2 p j) = A2 (ix2 r j))
    (h4 : ∀ k cc, x4 (ix2 k cc) = side (fun j => A4 (ix2 j cc)) (fun j => A5 (ix2 j cc)) k)
    (h5 : ∀ cc, x5 (ix2 (0 : Fin 1) cc) = A6 (ix1 cc)) :
    preBlk x0 x2 x4 x5 p = preOf A0 A2 A4 A5 A6 r := by
  funext cc
  unfold preBlk preOf
  simp only [h0, h2, h4, h5]
  exact congrFun (linSide_eq (fun j => A0 (ix2 r j)) (fun j => A2 (ix2 r j)) (fun k c => A4 (ix2 k c)) (fun k c => A5 (ix2 k c))
    (fun c => A6 (ix1 c))) cc

theorem pre_eq (c : Dev nD) (t : Fin cfg0.N) (p : Fin 2048) :
    preBlk (iblk m c 0 t) (iblk m c 2 t) (iblk m c 4 t) (iblk m c 5 t) p
      = preOf (m ((c : Thread nD τ).loc main_arg0)) (m ((c : Thread nD τ).loc main_arg2)) (m ((c : Thread nD τ).loc main_arg4)) (m ((c : Thread nD τ).loc main_arg5)) (m ((c : Thread nD τ).loc main_arg6)) (rowAt t p) :=
  pre_eq_of (iblk m c 0 t) (iblk m c 2 t) (iblk m c 4 t) (iblk m c 5 t) (m ((c : Thread nD τ).loc main_arg0)) (m ((c : Thread nD τ).loc main_arg2)) (m ((c : Thread nD τ).loc main_arg4)) (m ((c : Thread nD τ).loc main_arg5)) (m ((c : Thread nD τ).loc main_arg6)) p (rowAt t p)
    (blk0_at m c t p) (blk2_at m c t p) (blk4_at m c t) (blk5_at m c t)

theorem params_eq (c : Dev nD) (t : Fin cfg0.N) :
    blkParams (iblk m c 6 t) (iblk m c 7 t) (iblk m c 8 t) (iblk m c 9 t) (iblk m c 10 t) (iblk m c 11 t) (iblk m c 12 t)
        (iblk m c 13 t) (iblk m c 14 t) (iblk m c 15 t) (iblk m c 16 t) (iblk m c 17 t)
      = paramsOf (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  unfold blkParams paramsOf
  simp only [blk6_at, blk7_at, blk8_at, blk9_at, blk10_at, blk11_at, blk12_at, blk13_at, blk14_at, blk15_at, blk16_at, blk17_at]

/-! ## What a point writes back, the cover, and the final arrays -/

/-- What point t writes back to the hidden array is block t of the hidden array of the arguments. -/
theorem flushed18_eq (c : Dev nD) (t : Fin cfg0.N) :
    (dats m 0 c).flushed 18 t = ((cfg0.win 18).blk t).view.read (Elt Ideal) (hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))) := by
  rw [flushed18]
  funext j
  obtain ⟨p, q, rfl⟩ : ∃ (p : Fin 2048) (q : Fin 128), j = ix2 p q := ⟨j 0, j 1, eq_ix2 j⟩
  rw [View.read_apply]
  have hemb : ((cfg0.win 18).blk t).view.emb (ix2 p q) = ix2 (rowAt t p) q := by
    funext a; apply Fin.ext
    obtain ⟨-, -, -, -, -, -, -, -, e18a, e18b, -, -, -, -, -, -, -, -, -, -, -, -, -, -, -, -, -, -, -, -, -, -, -, -, -, -, -, -, -, -⟩ := idx_facts t
    match a with
    | ⟨0, _⟩ => show win0_18.index t (0 : Fin 2) * 2048 + 1 * p.val = t.val * 2048 + p.val; omega
    | ⟨1, _⟩ => show win0_18.index t (1 : Fin 2) * 128 + 1 * q.val = q.val; omega
  rw [hemb]
  show out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix2 p q) = _
  refine (out18_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) p q).trans ?_
  rw [pre_eq m c t p, params_eq m c t]
  simp only [blk1_at, blk3_at]
  rfl

/-- What point t writes back to the cell array is block t of the cell array of the arguments. -/
theorem flushed19_eq (c : Dev nD) (t : Fin cfg0.N) :
    (dats m 0 c).flushed 19 t = ((cfg0.win 19).blk t).view.read (Elt Ideal) (cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))) := by
  rw [flushed19]
  funext j
  obtain ⟨p, q, rfl⟩ : ∃ (p : Fin 2048) (q : Fin 128), j = ix2 p q := ⟨j 0, j 1, eq_ix2 j⟩
  rw [View.read_apply]
  have hemb : ((cfg0.win 19).blk t).view.emb (ix2 p q) = ix2 (rowAt t p) q := by
    funext a; apply Fin.ext
    obtain ⟨-, -, -, -, -, -, -, -, -, -, e19a, e19b, -, -, -, -, -, -, -, -, -, -, -, -, -, -, -, -, -, -, -, -, -, -, -, -, -, -, -, -⟩ := idx_facts t
    match a with
    | ⟨0, _⟩ => show win0_19.index t (0 : Fin 2) * 2048 + 1 * p.val = t.val * 2048 + p.val; omega
    | ⟨1, _⟩ => show win0_19.index t (1 : Fin 2) * 128 + 1 * q.val = q.val; omega
  rw [hemb]
  show out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix2 p q) = _
  refine (out19_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) p q).trans ?_
  rw [pre_eq m c t p, params_eq m c t]
  simp only [blk1_at, blk3_at]
  rfl

theorem mem_blk18 (t : Fin cfg0.N) (i : S131072x128.Idx) :
    i ∈ ((cfg0.win 18).blk t).view.set ↔ ∀ a : Fin 2, win0_18.index t a * S2048x128.size a ≤ (i a).val
      ∧ (i a).val < win0_18.index t a * S2048x128.size a + S2048x128.size a := by
  show i ∈ ((View.whole main_v16_0).slice (win0_18.rect t)).set ↔ _
  rw [View.set_slice_whole, Rect.mem_set_unit]
  exact Iff.rfl

/-- Every index of the array lies in the block of the point whose number is its row divided by 2048. -/
theorem cover18 (i : S131072x128.Idx) :
    ∃ t : Fin cfg0.N, (cfg0.win 18).flush t = true ∧ i ∈ ((cfg0.win 18).blk t).view.set := by
  have hi0 : (i 0).val < 131072 := (i 0).isLt
  have hi1 : (i 1).val < 128 := (i 1).isLt
  obtain ⟨t, ht⟩ : ∃ t : Fin cfg0.N, t.val = (i 0).val / 2048 :=
    ⟨⟨(i 0).val / 2048, by rw [show cfg0.N = 64 from N_0]; omega⟩, rfl⟩
  refine ⟨t, flush0_18 t, ?_⟩
  rw [mem_blk18]
  obtain ⟨-, -, -, -, -, -, -, -, e18a, e18b, -, -, -, -, -, -, -, -, -, -, -, -, -, -, -, -, -, -, -, -, -, -, -, -, -, -, -, -, -, -⟩ := idx_facts t
  intro a
  match a with
  | ⟨0, _⟩ => show win0_18.index t (0 : Fin 2) * 2048 ≤ (i 0).val ∧ (i 0).val < win0_18.index t (0 : Fin 2) * 2048 + 2048; omega
  | ⟨1, _⟩ => show win0_18.index t (1 : Fin 2) * 128 ≤ (i 1).val ∧ (i 1).val < win0_18.index t (1 : Fin 2) * 128 + 128; omega

theorem mem_blk19 (t : Fin cfg0.N) (i : S131072x128.Idx) :
    i ∈ ((cfg0.win 19).blk t).view.set ↔ ∀ a : Fin 2, win0_19.index t a * S2048x128.size a ≤ (i a).val
      ∧ (i a).val < win0_19.index t a * S2048x128.size a + S2048x128.size a := by
  show i ∈ ((View.whole main_v16_1).slice (win0_19.rect t)).set ↔ _
  rw [View.set_slice_whole, Rect.mem_set_unit]
  exact Iff.rfl

/-- Every index of the array lies in the block of the point whose number is its row divided by 2048. -/
theorem cover19 (i : S131072x128.Idx) :
    ∃ t : Fin cfg0.N, (cfg0.win 19).flush t = true ∧ i ∈ ((cfg0.win 19).blk t).view.set := by
  have hi0 : (i 0).val < 131072 := (i 0).isLt
  have hi1 : (i 1).val < 128 := (i 1).isLt
  obtain ⟨t, ht⟩ : ∃ t : Fin cfg0.N, t.val = (i 0).val / 2048 :=
    ⟨⟨(i 0).val / 2048, by rw [show cfg0.N = 64 from N_0]; omega⟩, rfl⟩
  refine ⟨t, flush0_19 t, ?_⟩
  rw [mem_blk19]
  obtain ⟨-, -, -, -, -, -, -, -, -, -, e19a, e19b, -, -, -, -, -, -, -, -, -, -, -, -, -, -, -, -, -, -, -, -, -, -, -, -, -, -, -, -⟩ := idx_facts t
  intro a
  match a with
  | ⟨0, _⟩ => show win0_19.index t (0 : Fin 2) * 2048 ≤ (i 0).val ∧ (i 0).val < win0_19.index t (0 : Fin 2) * 2048 + 2048; omega
  | ⟨1, _⟩ => show win0_19.index t (1 : Fin 2) * 128 ≤ (i 1).val ∧ (i 1).val < win0_19.index t (1 : Fin 2) * 128 + 128; omega

/-- The hidden array after the run. -/
theorem final18 (c : Dev nD) : (dats m 0 c).arrAt 18 cfg0.N = hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) :=
  (dats m 0 c).arrAt_eq_of_cover 18 (hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))) (fun t _ => flushed18_eq m c t) cover18

/-- The cell array after the run. -/
theorem final19 (c : Dev nD) : (dats m 0 c).arrAt 19 cfg0.N = cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) :=
  (dats m 0 c).arrAt_eq_of_cover 19 (cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))) (fun t _ => flushed19_eq m c t) cover19

/-- Every weakly fair execution of the kernel program terminates with the two result arrays at the row functions of
    the argument arrays, and the arguments unchanged. -/
theorem run : θ_run defs (onTc (τ := τ) (main (F := Ideal))) ⟨m, fun _ => 0, ρ⟩ fun r => ∀ c : Dev nD,
      r.2.mem ((c : Thread nD τ).loc main_v16_0) = hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))
      ∧ r.2.mem ((c : Thread nD τ).loc main_v16_1) = cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18) :=
  (θ_run defs _ _).mono (fun r h c => ⟨(h c).1.trans (final18 m c), (h c).2.1.trans (final19 m c), (h c).2.2⟩)
    (run_blocks m ρ)

end Cert.KernelIdeal.Arr

end
-- ==== Proof.RefOps.lean ====
/-
  The reference program's array operations that are not pointwise, each read at one index, over the extended reals.

  A row sum with initial value the word of 0 is the sum over the row's 128 columns; a vector of row values placed as a
  column and a column spread along the rows read the row's value; a parameter vector spread over the rows reads its
  column's value; a scalar spread anywhere reads the scalar; a block of 128 columns cut from the 640 reads the source
  at the shifted column; a contraction of a row of the left operand against a column of the right one is the sum over
  the 128 contracted positions of the products.
-/
import proofs.«415454_j61366492725519_3_alg».proof.Proof.Gen.ReferenceIdeal
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

open scoped BigOperators

namespace Cert.ReferenceIdeal.RefValue

open Cert.ReferenceIdeal Cert.ReferenceIdeal.Gen Idealize.ShloMosaic Idealize.ShloMosaic.ValueIdx

/-- The sum of a row from the word of 0: the sum of its 128 entries. -/
theorem rowSum_apply (x : FVec Ideal S131072x128 .f32) (h' : S131072x128.ReducesTo [1] S131072) (hu : 0 < S_.numel)
    (r : Fin 131072) :
    Host.reduceAdd (F := Ideal) x (constant S_ .f32 0x00000000#32) h' hu (ix1 r) = ∑ k : Fin 128, x (ix2 r k) := by
  rw [hostReduceAdd_apply, Ideal.hostReduceAdd_single h' (by decide), constant_apply, Ideal.ofBits_zero_f32, zero_add]
  refine Finset.sum_congr rfl fun k _ => congrArg x ?_
  funext a
  match a with
  | ⟨0, _⟩ => rfl
  | ⟨1, _⟩ => rfl

/-- A vector of row values placed as a column reads the row's value. -/
theorem toCol_apply {α : Type} (v : S131072.Idx → α) (h : S131072.BroadcastsInDim S131072x1 ![0]) (r : Fin 131072) (z : Fin 1) :
    broadcastInDim S131072x1 ![0] h v (ix2 r z) = v (ix1 r) :=
  broadcastInDim_apply _ h v _ (ix1 r) fun a => by
    match a with
    | ⟨0, _⟩ => rfl

/-- A column spread along the rows reads the row's value. -/
theorem colSpread_apply {α : Type} (c : S131072x1.Idx → α) (h : S131072x1.BroadcastsInDim S131072x128 ![0, 1]) (r : Fin 131072)
    (q : Fin 128) : broadcastInDim S131072x128 ![0, 1] h c (ix2 r q) = c (ix2 r 0) :=
  broadcastInDim_apply _ h c _ (ix2 r 0) fun a => by
    match a with
    | ⟨0, _⟩ => rfl
    | ⟨1, _⟩ => rfl

/-- A vector of 128 column values spread over the rows (through one row) reads the column's value. -/
theorem vecSpread_apply {α : Type} (g : S128.Idx → α) (h₁ : S128.BroadcastsInDim S1x128 ![1])
    (h₂ : S1x128.BroadcastsInDim S131072x128 ![0, 1]) (r : Fin 131072) (q : Fin 128) :
    broadcastInDim S131072x128 ![0, 1] h₂ (broadcastInDim S1x128 ![1] h₁ g) (ix2 r q) = g (ix1 q) := by
  rw [broadcastInDim_apply _ h₂ _ _ (ix2 (0 : Fin 1) q) fun a => by
    match a with
    | ⟨0, _⟩ => rfl
    | ⟨1, _⟩ => rfl]
  exact broadcastInDim_apply _ h₁ g _ (ix1 q) fun a => by
    match a with
    | ⟨0, _⟩ => rfl

/-- The vector of 640 biases spread over the rows (through one row) reads the column's bias. -/
theorem biasSpread_apply {α : Type} (g : S640.Idx → α) (h₁ : S640.BroadcastsInDim S1x640 ![1])
    (h₂ : S1x640.BroadcastsInDim S131072x640 ![0, 1]) (r : Fin 131072) (c : Fin 640) :
    broadcastInDim S131072x640 ![0, 1] h₂ (broadcastInDim S1x640 ![1] h₁ g) (ix2 r c) = g (ix1 c) := by
  rw [broadcastInDim_apply _ h₂ _ _ (ix2 (0 : Fin 1) c) fun a => by
    match a with
    | ⟨0, _⟩ => rfl
    | ⟨1, _⟩ => rfl]
  exact broadcastInDim_apply _ h₁ g _ (ix1 c) fun a => by
    match a with
    | ⟨0, _⟩ => rfl

/-- A scalar constant spread over any shape reads the extended real of its word. -/
theorem scalarSpread_apply {T : Shape} (w : BitVec 32) (h : S_.BroadcastsInDim T ![]) (j : T.Idx) :
    broadcastInDim T ![] h (constant (F := Ideal) S_ .f32 w) j = Ideal.ofBits .f32 w := by
  rw [broadcastInDim_scalar_apply, constant_apply]

/-! ## The contraction of a row against a column -/

/-- The left operand's row coordinate is the result's row … -/
theorem lhs_dot_0 (i : S131072x640.Idx) (q : dot_S131072x128_S128x640_S131072x640_1_0_0_1_n_n.contr.Idx) :
    (dot_S131072x128_S128x640_S131072x640_1_0_0_1_n_n.lhsIdx i q 0).val = (i 0).val := by
  unfold DotDims.lhsIdx
  rw [dif_neg (show ¬(0 : Fin S131072x128.rank) ∈ dot_S131072x128_S128x640_S131072x640_1_0_0_1_n_n.lhsBatch by decide),
    dif_pos (show (0 : Fin S131072x128.rank) ∈ dot_S131072x128_S128x640_S131072x640_1_0_0_1_n_n.lhsNonContracting by decide)]
  rfl
/-- … its column coordinate the contracted position; … -/
theorem lhs_dot_1 (i : S131072x640.Idx) (q : dot_S131072x128_S128x640_S131072x640_1_0_0_1_n_n.contr.Idx) :
    (dot_S131072x128_S128x640_S131072x640_1_0_0_1_n_n.lhsIdx i q 1).val = (q ⟨0, by decide⟩).val :=
  dot_S131072x128_S128x640_S131072x640_1_0_0_1_n_n.lhsIdx_val_of_single rfl i q
/-- … the right operand's row coordinate is the contracted position … -/
theorem rhs_dot_0 (i : S131072x640.Idx) (q : dot_S131072x128_S128x640_S131072x640_1_0_0_1_n_n.contr.Idx) :
    (dot_S131072x128_S128x640_S131072x640_1_0_0_1_n_n.rhsIdx i q 0).val = (q ⟨0, by decide⟩).val :=
  dot_S131072x128_S128x640_S131072x640_1_0_0_1_n_n.rhsIdx_val_of_single rfl i q
/-- … and its column coordinate the result's column. -/
theorem rhs_dot_1 (i : S131072x640.Idx) (q : dot_S131072x128_S128x640_S131072x640_1_0_0_1_n_n.contr.Idx) :
    (dot_S131072x128_S128x640_S131072x640_1_0_0_1_n_n.rhsIdx i q 1).val = (i 1).val := by
  unfold DotDims.rhsIdx
  rw [dif_neg (show ¬(1 : Fin S128x640.rank) ∈ dot_S131072x128_S128x640_S131072x640_1_0_0_1_n_n.rhsBatch by decide),
    dif_pos (show (1 : Fin S128x640.rank) ∈ dot_S131072x128_S128x640_S131072x640_1_0_0_1_n_n.rhsNonContracting by decide)]
  rfl

/-- The product of the state array with a weight table at (r, c): the sum over k of row r's entry k times the table's
    entry (k, c). -/
theorem dot_apply (l : FVec Ideal S131072x128 .f32) (w : FVec Ideal S128x640 .f32) (r : Fin 131072) (c : Fin 640) :
    Host.dotGeneral (F := Ideal) dot_S131072x128_S128x640_S131072x640_1_0_0_1_n_n none l w (ix2 r c)
      = ∑ k : Fin 128, l (ix2 r k) * w (ix2 k c) := by
  simp only [Host.dotGeneral]
  rw [Ideal.dotGeneral_apply, ← Equiv.sum_comp (ValueIdx.contrEquiv1 dot_S131072x128_S128x640_S131072x640_1_0_0_1_n_n 128 rfl rfl).symm]
  refine Finset.sum_congr rfl fun k _ => ?_
  have hk := ValueIdx.contrEquiv1_symm_val dot_S131072x128_S128x640_S131072x640_1_0_0_1_n_n 128 rfl rfl k
  have el : dot_S131072x128_S128x640_S131072x640_1_0_0_1_n_n.lhsIdx (ix2 r c) ((ValueIdx.contrEquiv1 dot_S131072x128_S128x640_S131072x640_1_0_0_1_n_n 128 rfl rfl).symm k) = ix2 r k :=
    funext fun a => Fin.ext (by
      match a with
      | ⟨0, _⟩ => exact lhs_dot_0 _ _
      | ⟨1, _⟩ => exact (lhs_dot_1 _ _).trans hk)
  have er : dot_S131072x128_S128x640_S131072x640_1_0_0_1_n_n.rhsIdx (ix2 r c) ((ValueIdx.contrEquiv1 dot_S131072x128_S128x640_S131072x640_1_0_0_1_n_n 128 rfl rfl).symm k) = ix2 k c :=
    funext fun a => Fin.ext (by
      match a with
      | ⟨0, _⟩ => exact (rhs_dot_0 _ _).trans hk
      | ⟨1, _⟩ => exact rhs_dot_1 _ _)
  rw [el, er]

end Cert.ReferenceIdeal.RefValue

end
-- ==== Proof.RefRows.lean ====
/-
  The reference program's two results read at an index (r, j), over the extended reals: the new cell and the new hidden
  state of row r at column j, as the row functions of Cell.lean applied to row r of the four state arrays and to the
  shared parameter tables.

  The program forms the 640 pre-activations of every row (two contractions over 128 added, plus the bias), cuts them
  into five blocks of 128 columns, and normalises each block row by row: the row mean is the row sum divided by the
  word of 128, the variance the mean of the squared deviations, and the normalised entry the deviation times
  rsqrt (variance + ε) times the gain plus the bias. Every step is either pointwise or one of the operations read in
  RefOps.lean, so the value at (r, j) is the same expression the row functions spell, term for term.
-/
import proofs.«415454_j61366492725519_3_alg».proof.Proof.Gen.ReferenceIdeal.Run
import proofs.«415454_j61366492725519_3_alg».proof.Proof.Cell
import proofs.«415454_j61366492725519_3_alg».proof.Proof.RefOps
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.ReferenceIdeal.RefValue

open Cert.ReferenceIdeal Cert.ReferenceIdeal.Gen Cert.ReferenceIdeal.Value Idealize.ShloMosaic Idealize.ShloMosaic.TcCoe
  Idealize.SL.Sem Idealize.ShloMosaic.StableHlo Idealize.ShloMosaic.ValueIdx

/-! ## The program's composite terms, named -/

/-- The column of row means of an array: the row sums, as a column, divided by the word of 128. -/
abbrev meanT (x : FVec Ideal S131072x128 .f32) : FVec Ideal S131072x1 .f32 :=
  Host.divf (broadcastInDim S131072x1 ![0] bcast_S131072_S131072x1_0 (Host.reduceAdd x (constant S_ .f32 0x00000000#32) reducesTo_S131072x128_S131072_d1 h_S_)) (broadcastInDim S131072x1 ![] bcast_S_S131072x1 (constant S_ .f32 0x43000000#32))

/-- LayerNorm of an array x row by row, as the program spells it, from x, its column of row means m, the deviations xc
    and the gain and bias vectors. -/
abbrev lnT (x xc : FVec Ideal S131072x128 .f32) (m : FVec Ideal S131072x1 .f32) (g b : FVec Ideal S128 .f32) :
    FVec Ideal S131072x128 .f32 :=
  addf (mulf (mulf (subf x (broadcastInDim S131072x128 ![0, 1] bcast_S131072x1_S131072x128_0_1 m)) (broadcastInDim S131072x128 ![0, 1] bcast_S131072x1_S131072x128_0_1 (Host.rsqrt (addf (meanT (mulf xc xc)) (broadcastInDim S131072x1 ![] bcast_S_S131072x1 (constant S_ .f32 0x3727C5AC#32)))))) (broadcastInDim S131072x128 ![0, 1] bcast_S1x128_S131072x128_0_1 (broadcastInDim S1x128 ![1] bcast_S128_S1x128_1 g))) (broadcastInDim S131072x128 ![0, 1] bcast_S1x128_S131072x128_0_1 (broadcastInDim S1x128 ![1] bcast_S128_S1x128_1 b))

/-- The logistic function of an array as the program spells it: 1 / (1 + e^(−t)), the two ones the word of 1. -/
abbrev sigT (t : FVec Ideal S131072x128 .f32) : FVec Ideal S131072x128 .f32 :=
  Host.divf (broadcastInDim S131072x128 ![] bcast_S_S131072x128 (constant S_ .f32 0x3F800000#32)) (addf (broadcastInDim S131072x128 ![] bcast_S_S131072x128 (constant S_ .f32 0x3F800000#32)) (Host.exp (Host.negf t)))

/-! ## The composite terms at an index -/

/-- The column of row means at row r: the mean of row r. -/
theorem meanT_apply (x : FVec Ideal S131072x128 .f32) (r : Fin 131072) (z : Fin 1) :
    meanT x (ix2 r z) = Cert.TreeCell.mean fun k => x (ix2 r k) := by
  unfold meanT
  rw [hostDivf_apply, toCol_apply, rowSum_apply, scalarSpread_apply]
  rfl

/-- The host's reciprocal square root, hyperbolic tangent at an index. -/
theorem hostRsqrt_apply {s : Shape} (y : FVec Ideal s .f32) (j : s.Idx) : Host.rsqrt y j = Ideal.rsqrt (y j) := rfl
theorem hostTanh_apply {s : Shape} (y : FVec Ideal s .f32) (j : s.Idx) : Host.tanh y j = Ideal.tanh (y j) := rfl

/-- The program's LayerNorm term at (r, q), when m is the column of row means of x, xc the deviations and row r of x
    is z: LayerNorm of z with the gain and bias read by column, at q. -/
theorem lnT_apply (x xc : FVec Ideal S131072x128 .f32) (m : FVec Ideal S131072x1 .f32) (g b : FVec Ideal S128 .f32)
    (hm : m = meanT x) (hxc : xc = subf x (broadcastInDim S131072x128 ![0, 1] bcast_S131072x1_S131072x128_0_1 m))
    (r : Fin 131072) (q : Fin 128) (z : Fin 128 → EReal) (hz : ∀ k, x (ix2 r k) = z k) :
    lnT x xc m g b (ix2 r q) = Cert.TreeCell.layerNorm z (fun k => g (ix1 k)) (fun k => b (ix1 k)) q := by
  subst hm
  have hc : ∀ k, subf x (broadcastInDim S131072x128 ![0, 1] bcast_S131072x1_S131072x128_0_1 (meanT x)) (ix2 r k)
      = z k - Cert.TreeCell.mean z := fun k => by
    rw [subf_apply, colSpread_apply, meanT_apply, hz k, show (fun k => x (ix2 r k)) = z from funext hz]
  subst hxc
  unfold lnT
  rw [addf_apply, mulf_apply, mulf_apply, vecSpread_apply, vecSpread_apply, hc q, colSpread_apply, hostRsqrt_apply,
    addf_apply, meanT_apply, scalarSpread_apply]
  rw [show (fun k => mulf (subf x (broadcastInDim S131072x128 ![0, 1] bcast_S131072x1_S131072x128_0_1 (meanT x)))
      (subf x (broadcastInDim S131072x128 ![0, 1] bcast_S131072x1_S131072x128_0_1 (meanT x))) (ix2 r k))
      = fun k => (z k - Cert.TreeCell.mean z) * (z k - Cert.TreeCell.mean z) from funext fun k => by rw [mulf_apply, hc k]]
  rfl

/-- The program's logistic term at an index: the logistic function of the entry. -/
theorem sigT_apply (t : FVec Ideal S131072x128 .f32) (j : S131072x128.Idx) : sigT t j = Ideal.logistic (t j) := by
  unfold sigT
  rw [hostDivf_apply, addf_apply, scalarSpread_apply, Ideal.ofBits_one_f32]
  rfl

/-! ## The program's intermediate arrays at an index -/

/-- Row r's pre-activations from the argument arrays. -/
abbrev pre (V0 : Valuation τ sig (Elt Ideal)) (r : Fin 131072) : Fin 640 → EReal :=
  Cert.TreeCell.preOf (V0 (Proc.devRef .tc main_arg0)) (V0 (Proc.devRef .tc main_arg2)) (V0 (Proc.devRef .tc main_arg4)) (V0 (Proc.devRef .tc main_arg5)) (V0 (Proc.devRef .tc main_arg6)) r

/-- The six pairs of LayerNorm vectors from the argument arrays. -/
abbrev par (V0 : Valuation τ sig (Elt Ideal)) : Cert.TreeCell.Params :=
  Cert.TreeCell.paramsOf (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18))

/-- The pre-activation array at (r, c): the two contractions of row r added, plus the bias of column c. -/
theorem pre_apply (V0 : Valuation τ sig (Elt Ideal)) (r : Fin 131072) (c : Fin 640) :
    (res_main_v5 V0 : FVec Ideal S131072x640 .f32) (ix2 r c) = pre V0 r c := by
  unfold res_main_v5
  rw [addf_apply, addf_apply, dot_apply, dot_apply, biasSpread_apply]
  rfl

/-- The first block of 128 columns at (r, k): gate 0's pre-activations of row r. -/
theorem gate0_apply (V0 : Valuation τ sig (Elt Ideal)) (r : Fin 131072) (k : Fin 128) :
    (res_main_v6 V0 : FVec Ideal S131072x128 .f32) (ix2 r k) = Cert.TreeCell.gatePre (pre V0 r) 0 k := by
  unfold res_main_v6
  rw [slice2_axis1_apply 0 _ _ r k (Cert.TreeCell.slot 0 k) (by simp [Cert.TreeCell.slot])]
  exact pre_apply V0 r _

/-- The second block: gate 1's. -/
theorem gate1_apply (V0 : Valuation τ sig (Elt Ideal)) (r : Fin 131072) (k : Fin 128) :
    (res_main_v7 V0 : FVec Ideal S131072x128 .f32) (ix2 r k) = Cert.TreeCell.gatePre (pre V0 r) 1 k := by
  unfold res_main_v7
  rw [slice2_axis1_apply 128 _ _ r k (Cert.TreeCell.slot 1 k) (by simp [Cert.TreeCell.slot])]
  exact pre_apply V0 r _

/-- The third block: gate 2's. -/
theorem gate2_apply (V0 : Valuation τ sig (Elt Ideal)) (r : Fin 131072) (k : Fin 128) :
    (res_main_v8 V0 : FVec Ideal S131072x128 .f32) (ix2 r k) = Cert.TreeCell.gatePre (pre V0 r) 2 k := by
  unfold res_main_v8
  rw [slice2_axis1_apply 256 _ _ r k (Cert.TreeCell.slot 2 k) (by simp [Cert.TreeCell.slot])]
  exact pre_apply V0 r _

/-- The fourth block: gate 3's. -/
theorem gate3_apply (V0 : Valuation τ sig (Elt Ideal)) (r : Fin 131072) (k : Fin 128) :
    (res_main_v9 V0 : FVec Ideal S131072x128 .f32) (ix2 r k) = Cert.TreeCell.gatePre (pre V0 r) 3 k := by
  unfold res_main_v9
  rw [slice2_axis1_apply 384 _ _ r k (Cert.TreeCell.slot 3 k) (by simp [Cert.TreeCell.slot])]
  exact pre_apply V0 r _

/-- The fifth block: gate 4's. -/
theorem gate4_apply (V0 : Valuation τ sig (Elt Ideal)) (r : Fin 131072) (k : Fin 128) :
    (res_main_v10 V0 : FVec Ideal S131072x128 .f32) (ix2 r k) = Cert.TreeCell.gatePre (pre V0 r) 4 k := by
  unfold res_main_v10
  rw [slice2_axis1_apply 512 _ _ r k (Cert.TreeCell.slot 4 k) (by simp [Cert.TreeCell.slot])]
  exact pre_apply V0 r _

/-- What is normalised into the new cell, at (r, k): i·u + lf·lcell + rf·rcell of row r. -/
theorem mix_apply (V0 : Valuation τ sig (Elt Ideal)) (r : Fin 131072) (k : Fin 128) :
    (res_main_v160 V0 : FVec Ideal S131072x128 .f32) (ix2 r k)
      = Cert.TreeCell.mix (par V0) (pre V0 r) (fun k => (V0 (Proc.devRef .tc main_arg1)) (ix2 r k)) (fun k => (V0 (Proc.devRef .tc main_arg3)) (ix2 r k)) k := by
  have e : (res_main_v160 V0 : FVec Ideal S131072x128 .f32)
      = addf (addf (mulf (sigT (lnT (res_main_v7 V0) (res_main_v41 V0) (res_main_v39 V0) (V0 (Proc.devRef .tc main_arg9)) (V0 (Proc.devRef .tc main_arg10))))
            (Host.tanh (lnT (res_main_v6 V0) (res_main_v16 V0) (res_main_v14 V0) (V0 (Proc.devRef .tc main_arg7)) (V0 (Proc.devRef .tc main_arg8)))))
          (mulf (sigT (lnT (res_main_v9 V0) (res_main_v101 V0) (res_main_v99 V0) (V0 (Proc.devRef .tc main_arg13)) (V0 (Proc.devRef .tc main_arg14)))) (V0 (Proc.devRef .tc main_arg1))))
        (mulf (sigT (lnT (res_main_v10 V0) (res_main_v131 V0) (res_main_v129 V0) (V0 (Proc.devRef .tc main_arg15)) (V0 (Proc.devRef .tc main_arg16)))) (V0 (Proc.devRef .tc main_arg3))) := rfl
  rw [e, addf_apply, addf_apply, mulf_apply, mulf_apply, mulf_apply, sigT_apply, sigT_apply, sigT_apply, hostTanh_apply,
    lnT_apply (res_main_v7 V0) (res_main_v41 V0) (res_main_v39 V0) _ _ rfl rfl r k _ (gate1_apply V0 r),
    lnT_apply (res_main_v6 V0) (res_main_v16 V0) (res_main_v14 V0) _ _ rfl rfl r k _ (gate0_apply V0 r),
    lnT_apply (res_main_v9 V0) (res_main_v101 V0) (res_main_v99 V0) _ _ rfl rfl r k _ (gate3_apply V0 r),
    lnT_apply (res_main_v10 V0) (res_main_v131 V0) (res_main_v129 V0) _ _ rfl rfl r k _ (gate4_apply V0 r)]
  rfl

/-! ## The two results -/

/-- The new cell array the reference program ends with: the row function of Cell.lean at every (r, j). -/
theorem cell_eq (V0 : Valuation τ sig (Elt Ideal)) :
    val4 V0 (no_index (Proc.devRef .tc main_v184)) = Cert.TreeCell.cellArr (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) := by
  rw [val4_main_v184]
  funext y
  obtain ⟨r, q, rfl⟩ : ∃ (r : Fin 131072) (q : Fin 128), y = ix2 r q := ⟨y 0, y 1, eq_ix2 y⟩
  exact lnT_apply (res_main_v160 V0) (res_main_v166 V0) (res_main_v164 V0) (V0 (Proc.devRef .tc main_arg17)) (V0 (Proc.devRef .tc main_arg18)) rfl rfl r q _ (mix_apply V0 r)

/-- The new hidden array the reference program ends with, likewise. -/
theorem hidden_eq (V0 : Valuation τ sig (Elt Ideal)) :
    val4 V0 (no_index (Proc.devRef .tc main_v186)) = Cert.TreeCell.hiddenArr (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) := by
  rw [val4_main_v186]
  funext y
  obtain ⟨r, q, rfl⟩ : ∃ (r : Fin 131072) (q : Fin 128), y = ix2 r q := ⟨y 0, y 1, eq_ix2 y⟩
  have e : mulf (sigT (lnT (res_main_v8 V0) (res_main_v71 V0) (res_main_v69 V0) (V0 (Proc.devRef .tc main_arg11)) (V0 (Proc.devRef .tc main_arg12))))
      (Host.tanh (lnT (res_main_v160 V0) (res_main_v166 V0) (res_main_v164 V0) (V0 (Proc.devRef .tc main_arg17)) (V0 (Proc.devRef .tc main_arg18)))) (ix2 r q)
      = Cert.TreeCell.hiddenArr (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (ix2 r q) := by
    rw [mulf_apply, sigT_apply, hostTanh_apply,
      lnT_apply (res_main_v8 V0) (res_main_v71 V0) (res_main_v69 V0) _ _ rfl rfl r q _ (gate2_apply V0 r),
      lnT_apply (res_main_v160 V0) (res_main_v166 V0) (res_main_v164 V0) _ _ rfl rfl r q _ (mix_apply V0 r)]
    rfl
  exact e

end Cert.ReferenceIdeal.RefValue

end
-- ==== Proof.lean ====
/- The proof of Cert.Claim for the tree-LSTM cell with LayerNorm on every gate: one fused kernel over 64 row tiles of
   2048 rows against the plain array program.

   Both programs compute, for every row r and column j, the same expression of row r of the four state arrays and of the
   shared weight, bias and LayerNorm tables (Proof/Cell.lean: cellArr and hiddenArr). The kernel side is read off the
   generated frame run: the body's two stored values at an index are the row functions of the block's rows
   (Proof/KernelPre.lean, KernelGates.lean, KernelOut.lean), a block's rows are the arrays' rows and the 64 blocks cover
   the arrays (Proof/KernelArray.lean). The reference side is its generated run read at an index (Proof/RefOps.lean,
   RefRows.lean). The one law between the two is that the kernel's single contraction over the 256 side-by-side columns
   is the sum of the reference's two contractions over 128; it needs only associativity and commutativity of addition on
   the extended reals, so the precondition is never opened. The ideal pass recorded no rewrite, so the kernel's
   idealization claim is the true proposition. -/
import proofs.«415454_j61366492725519_3_alg».proof.Defs
import proofs.«415454_j61366492725519_3_alg».proof.Proof.Gen.Kernel
import proofs.«415454_j61366492725519_3_alg».proof.Proof.Gen.Kernel.Skeleton
import proofs.«415454_j61366492725519_3_alg».proof.Proof.Gen.Kernel.Launch
import proofs.«415454_j61366492725519_3_alg».proof.Proof.Gen.Kernel.Points
import proofs.«415454_j61366492725519_3_alg».proof.Proof.Gen.Kernel.Frame
import proofs.«415454_j61366492725519_3_alg».proof.Proof.Gen.KernelIdeal
import proofs.«415454_j61366492725519_3_alg».proof.Proof.Gen.KernelIdeal.Skeleton
import proofs.«415454_j61366492725519_3_alg».proof.Proof.Gen.KernelIdeal.Launch
import proofs.«415454_j61366492725519_3_alg».proof.Proof.Gen.KernelIdeal.Points
import proofs.«415454_j61366492725519_3_alg».proof.Proof.Gen.KernelIdeal.Frame
import proofs.«415454_j61366492725519_3_alg».proof.Proof.Gen.ReferenceIdeal
import proofs.«415454_j61366492725519_3_alg».proof.Proof.Gen.Pre_finite_inputs
import proofs.«415454_j61366492725519_3_alg».proof.Proof.Gen.ReferenceIdeal.Run
import proofs.«415454_j61366492725519_3_alg».proof.Proof.KernelIdealValue
import proofs.«415454_j61366492725519_3_alg».proof.Proof.KernelArray
import proofs.«415454_j61366492725519_3_alg».proof.Proof.RefRows
import Idealize.ShloMosaic.Adequacy
import Idealize.ShloMosaic.Init

noncomputable section

namespace Cert.Proof

open Idealize.ShloMosaic Idealize.ShloMosaic.TcCoe Idealize.SL.Sem Cert.TreeCell

theorem frame_k : Cert.frame_Kernel := fun m ρ _ => Cert.Kernel.Gen.frame m ρ

theorem frame_ki : Cert.frame_KernelIdeal := fun m ρ _ => Cert.KernelIdeal.Gen.frame m ρ

/-- The reference program has no kernel: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the nineteen arguments the two programs end with the same two arrays: each result is
    the same function of the argument arrays on both sides. -/
theorem algebraic : Cert.algebraic_KernelIdeal_ReferenceIdeal := by
  intro m ρ m' ρ' _ hagree
  refine ⟨_, _, Cert.KernelIdeal.Arr.run m ρ, ?_⟩
  refine (θ_run Cert.ReferenceIdeal.defs _ _).mono (fun r h c => ?_) (Cert.ReferenceIdeal.Value.run (F := Ideal) m' ρ')
  obtain ⟨h186, h184, hargs⟩ := h c
  obtain ⟨a0, a1, a2, a3, a4, a5, a6, a7, a8, a9, a10, a11, a12, a13, a14, a15, a16, a17, a18⟩ := hagree c
  have hh : r.2.mem ((c.tc : Thread Cert.ReferenceIdeal.nD Cert.ReferenceIdeal.τ).loc Cert.ReferenceIdeal.main_v186)
      = hiddenArr (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) :=
    h186.trans ((Cert.ReferenceIdeal.Value.val4_main_v186 (StableHlo.launchContents m' c)).symm.trans
      (Cert.ReferenceIdeal.RefValue.hidden_eq (StableHlo.launchContents m' c)))
  have hc : r.2.mem ((c.tc : Thread Cert.ReferenceIdeal.nD Cert.ReferenceIdeal.τ).loc Cert.ReferenceIdeal.main_v184)
      = cellArr (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) :=
    h184.trans ((Cert.ReferenceIdeal.Value.val4_main_v184 (StableHlo.launchContents m' c)).symm.trans
      (Cert.ReferenceIdeal.RefValue.cell_eq (StableHlo.launchContents m' c)))
  rw [a0, a1, a2, a3, a4, a5, a6, a7, a8, a9, a10, a11, a12, a13, a14, a15, a16, a17, a18] at hh hc
  exact ⟨hh, hc, hargs⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
